-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S100 : Shape := ⟨1, ![100]⟩
abbrev S4096 : Shape := ⟨1, ![4096]⟩
abbrev S65536x3 : Shape := ⟨2, ![65536, 3]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S100 : S_.BroadcastsInDim S100 (![] : Fin 0 → Fin S100.rank)
  reducesTo_S100_S_d0 : S100.ReducesTo [0] S_
  bcast_S_S65536x3 : S_.BroadcastsInDim S65536x3 (![] : Fin 0 → Fin S65536x3.rank)
  reducesTo_S65536x3_S_d0_1 : S65536x3.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : IVec S4096 32) (main_v15 : IVec S_ 1) (main_c_5 : IVec S_ 32) : IVec S_ 1 :=
  let main_v16 : IVec S4096 32 := broadcastInDim S4096 ![] bcast_S_S4096 main_c_5
  let main_v17 : IVec S4096 1 := cmpi .sge main_arg2 main_v16
  let main_c_6 : IVec S_ 32 := constantI S_ 32 100#32
  let main_v18 : IVec S4096 32 := broadcastInDim S4096 ![] bcast_S_S4096 main_c_6
  let main_v19 : IVec S4096 1 := cmpi .slt main_arg2 main_v18
  let main_v20 : IVec S4096 1 := andi main_v17 main_v19
  let main_c_7 : IVec S_ 1 := constantI S_ 1 1#1
  let main_v21 : IVec S_ 1 := (fun x v => Host.reduce IntOp.andi x v reducesTo_S4096_S_d0 h_S_) main_v20 main_c_7
  let main_v22 : IVec S_ 1 := andi main_v15 main_v21
  main_v22

def fn {F : FTy → Type} [FloatOps F] (main_arg0 : FVec F S4096x512 .f32) (main_arg1 : FVec F S100 .f32) (main_arg2 : IVec S4096 32) (main_arg3 : IVec S65536x3 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S100 .f32 := Host.absf main_arg1
  let main_cst_0 : FVec F S_ .f32 := constant S_ .f32 0x7F800000#32
  let main_v5 : FVec F S100 .f32 := broadcastInDim S100 ![] bcast_S_S100 main_cst_0
  let main_v6 : IVec S100 1 := cmpf .olt main_v4 main_v5
  let main_c_1 : IVec S_ 1 := constantI S_ 1 1#1
  let main_v7 : IVec S_ 1 := (fun x v => Host.reduce IntOp.andi x v reducesTo_S100_S_d0 h_S_) main_v6 main_c_1
  let main_v8 : IVec S_ 1 := andi main_v3 main_v7
  let main_c_2 : IVec S_ 32 := constantI S_ 32 4294963200#32
  let main_v9 : IVec S65536x3 32 := broadcastInDim S65536x3 ![] bcast_S_S65536x3 main_c_2
  let main_v10 : IVec S65536x3 1 := cmpi .sge main_arg3 main_v9
  let main_c_3 : IVec S_ 32 := constantI S_ 32 4096#32
  let main_v11 : IVec S65536x3 32 := broadcastInDim S65536x3 ![] bcast_S_S65536x3 main_c_3
  let main_v12 : IVec S65536x3 1 := cmpi .slt main_arg3 main_v11
  let main_v13 : IVec S65536x3 1 := andi main_v10 main_v12
  let main_c_4 : IVec S_ 1 := constantI S_ 1 1#1
  let main_v14 : IVec S_ 1 := (fun x v => Host.reduce IntOp.andi x v reducesTo_S65536x3_S_d0_1 h_S_) main_v13 main_c_4
  let main_v15 : IVec S_ 1 := andi main_v8 main_v14
  let main_c_5 : IVec S_ 32 := constantI S_ 32 4294967196#32
  fn_part1 (F := F) main_arg2 main_v15 main_c_5
-- ==== Kernel.lean ====
abbrev S4096x512 : Shape := ⟨2, ![4096, 512]⟩
abbrev S100 : Shape := ⟨1, ![100]⟩
abbrev S4096 : Shape := ⟨1, ![4096]⟩
abbrev S65536x3 : Shape := ⟨2, ![65536, 3]⟩
abbrev S65536x1 : Shape := ⟨2, ![65536, 1]⟩
abbrev S65536 : Shape := ⟨1, ![65536]⟩
abbrev S_ : Shape := ⟨0, ![]⟩
abbrev S1 : Shape := ⟨1, ![1]⟩
abbrev S1x1 : Shape := ⟨2, ![1, 1]⟩
abbrev S65536x512 : Shape := ⟨2, ![65536, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 125
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S100, .f32⟩
  | .hbm, ⟨2, _⟩ => ⟨S4096, .i32⟩
  | .hbm, ⟨3, _⟩ => ⟨S65536x3, .i32⟩
  | .hbm, ⟨4, _⟩ => ⟨S65536x1, .i32⟩
  | .hbm, ⟨5, _⟩ => ⟨S65536, .i32⟩
  | .hbm, ⟨6, _⟩ => ⟨S65536x1, .i32⟩
  | .hbm, ⟨7, _⟩ => ⟨S65536, .i32⟩
  | .hbm, ⟨8, _⟩ => ⟨S65536x1, .i32⟩
  | .hbm, ⟨9, _⟩ => ⟨S65536, .i32⟩
  | .hbm, ⟨10, _⟩ => ⟨S_, .i32⟩
  | .hbm, ⟨11, _⟩ => ⟨S65536, .i32⟩
  | .hbm, ⟨12, _⟩ => ⟨S65536, .i1⟩
  | .hbm, ⟨13, _⟩ => ⟨S_, .i32⟩
  | .hbm, ⟨14, _⟩ => ⟨S65536, .i32⟩
  | .hbm, ⟨15, _⟩ => ⟨S65536, .i32⟩
  | .hbm, ⟨16, _⟩ => ⟨S65536, .i32⟩
  | .hbm, ⟨17, _⟩ => ⟨S65536x1, .i32⟩
  | .hbm, ⟨18, _⟩ => ⟨S1, .i32⟩
  | .hbm, ⟨19, _⟩ => ⟨S_, .i32⟩
  | .hbm, ⟨20, _⟩ => ⟨S65536x1, .i32⟩
  | .hbm, ⟨21, _⟩ => ⟨S65536x1, .i1⟩
  | .hbm, ⟨22, _⟩ => ⟨S1x1, .i32⟩
  | .hbm, ⟨23, _⟩ => ⟨S65536x1, .i32⟩
  | .hbm, ⟨24, _⟩ => ⟨S65536x1, .i1⟩
  | .hbm, ⟨25, _⟩ => ⟨S65536x1, .i1⟩
  | .hbm, ⟨26, _⟩ => ⟨S_, .i1⟩
  | .hbm, ⟨27, _⟩ => ⟨S65536, .i1⟩
  | .hbm, ⟨28, _⟩ => ⟨S65536x512, .f32⟩
  | .hbm, ⟨29, _⟩ => ⟨S65536x512, .i1⟩
  | .hbm, ⟨30, _⟩ => ⟨S_, .f32⟩
  | .hbm, ⟨31, _⟩ => ⟨S65536x512, .f32⟩
  | .hbm, ⟨32, _⟩ => ⟨S65536x512, .f32⟩
  | .hbm, ⟨33, _⟩ => ⟨S_, .i32⟩
  | .hbm, ⟨34, _⟩ => ⟨S65536, .i32⟩
  | .hbm, ⟨35, _⟩ => ⟨S65536, .i1⟩
  | .hbm, ⟨36, _⟩ => ⟨S_, .i32⟩
  | .hbm, ⟨37, _⟩ => ⟨S65536, .i32⟩
  | .hbm, ⟨38, _⟩ => ⟨S65536, .i32⟩
  | .hbm, ⟨39, _⟩ => ⟨S65536, .i32⟩
  | .hbm, ⟨40, _⟩ => ⟨S65536x1, .i32⟩
  | .hbm, ⟨41, _⟩ => ⟨S1, .i32⟩
  | .hbm, ⟨42, _⟩ => ⟨S_, .i32⟩
  | .hbm, ⟨43, _⟩ => ⟨S65536x1, .i32⟩
  | .hbm, ⟨44, _⟩ => ⟨S65536x1, .i1⟩
  | .hbm, ⟨45, _⟩ => ⟨S1x1, .i32⟩
  | .hbm, ⟨46, _⟩ => ⟨S65536x1, .i32⟩
  | .hbm, ⟨47, _⟩ => ⟨S65536x1, .i1⟩
  | .hbm, ⟨48, _⟩ => ⟨S65536x1, .i1⟩
  | .hbm, ⟨49, _⟩ => ⟨S_, .i1⟩
  | .hbm, ⟨50, _⟩ => ⟨S65536, .i1⟩
  | .hbm, ⟨51, _⟩ => ⟨S65536x512, .f32⟩
  | .hbm, ⟨52, _⟩ => ⟨S65536x512, .i1⟩
  | .hbm, ⟨53, _⟩ => ⟨S_, .f32⟩
  | .hbm, ⟨54, _⟩ => ⟨S65536x512, .f32⟩
  | .hbm, ⟨55, _⟩ => ⟨S65536x512, .f32⟩
  | .hbm, ⟨56, _⟩ => ⟨S_, .i32⟩
  | .hbm, ⟨57, _⟩ => ⟨S65536, .i32⟩
  | .hbm, ⟨58, _⟩ => ⟨S65536, .i1⟩
  | .hbm, ⟨59, _⟩ => ⟨S_, .i32⟩
  | .hbm, ⟨60, _⟩ => ⟨S65536, .i32⟩
  | .hbm, ⟨61, _⟩ => ⟨S65536, .i32⟩
  | .hbm, ⟨62, _⟩ => ⟨S65536, .i32⟩
  | .hbm, ⟨63, _⟩ => ⟨S65536x1, .i32⟩
  | .hbm, ⟨64, _⟩ => ⟨S1, .i32⟩
  | .hbm, ⟨65, _⟩ => ⟨S_, .i32⟩
  | .hbm, ⟨66, _⟩ => ⟨S65536x1, .i32⟩
  | .hbm, ⟨67, _⟩ => ⟨S65536x1, .i1⟩
  | .hbm, ⟨68, _⟩ => ⟨S1x1, .i32⟩
  | .hbm, ⟨69, _⟩ => ⟨S65536x1, .i32⟩
  | .hbm, ⟨70, _⟩ => ⟨S65536x1, .i1⟩
  | .hbm, ⟨71, _⟩ => ⟨S65536x1, .i1⟩
  | .hbm, ⟨72, _⟩ => ⟨S_, .i1⟩
  | .hbm, ⟨73, _⟩ => ⟨S65536, .i1⟩
  | .hbm, ⟨74, _⟩ => ⟨S65536x512, .f32⟩
  | .hbm, ⟨75, _⟩ => ⟨S65536x512, .i1⟩
  | .hbm, ⟨76, _⟩ => ⟨S_, .f32⟩
  | .hbm, ⟨77, _⟩ => ⟨S65536x512, .f32⟩
  | .hbm, ⟨78, _⟩ => ⟨S65536x512, .f32⟩
  | .hbm, ⟨79, _⟩ => ⟨S_, .i32⟩
  | .hbm, ⟨80, _⟩ => ⟨S65536, .i32⟩
  | .hbm, ⟨81, _⟩ => ⟨S65536, .i1⟩
  | .hbm, ⟨82, _⟩ => ⟨S_, .i32⟩
  | .hbm, ⟨83, _⟩ => ⟨S65536, .i32⟩
  | .hbm, ⟨84, _⟩ => ⟨S65536, .i32⟩
  | .hbm, ⟨85, _⟩ => ⟨S65536, .i32⟩
  | .hbm, ⟨86, _⟩ => ⟨S65536x1, .i32⟩
  | .hbm, ⟨87, _⟩ => ⟨S1, .i32⟩
  | .hbm, ⟨88, _⟩ => ⟨S_, .i32⟩
  | .hbm, ⟨89, _⟩ => ⟨S65536x1, .i32⟩
  | .hbm, ⟨90, _⟩ => ⟨S65536x1, .i1⟩
  | .hbm, ⟨91, _⟩ => ⟨S1x1, .i32⟩
  | .hbm, ⟨92, _⟩ => ⟨S65536x1, .i32⟩
  | .hbm, ⟨93, _⟩ => ⟨S65536x1, .i1⟩
  | .hbm, ⟨94, _⟩ => ⟨S65536x1, .i1⟩
  | .hbm, ⟨95, _⟩ => ⟨S_, .i1⟩
  | .hbm, ⟨96, _⟩ => ⟨S65536, .i1⟩
  | .hbm, ⟨97, _⟩ => ⟨S65536, .i32⟩
  | .hbm, ⟨98, _⟩ => ⟨S_, .i32⟩
  | .hbm, ⟨99, _⟩ => ⟨S65536, .i32⟩
  | .hbm, ⟨100, _⟩ => ⟨S65536, .i32⟩
  | .hbm, ⟨101, _⟩ => ⟨S_, .i32⟩
  | .hbm, ⟨102, _⟩ => ⟨S65536, .i32⟩
  | .hbm, ⟨103, _⟩ => ⟨S65536, .i1⟩
  | .hbm, ⟨104, _⟩ => ⟨S_, .i32⟩
  | .hbm, ⟨105, _⟩ => ⟨S65536, .i32⟩
  | .hbm, ⟨106, _⟩ => ⟨S65536, .i32⟩
  | .hbm, ⟨107, _⟩ => ⟨S65536, .i32⟩
  | .hbm, ⟨108, _⟩ => ⟨S65536x1, .i32⟩
  | .hbm, ⟨109, _⟩ => ⟨S1, .i32⟩
  | .hbm, ⟨110, _⟩ => ⟨S_, .i32⟩
  | .hbm, ⟨111, _⟩ => ⟨S65536x1, .i32⟩
  | .hbm, ⟨112, _⟩ => ⟨S65536x1, .i1⟩
  | .hbm, ⟨113, _⟩ => ⟨S1x1, .i32⟩
  | .hbm, ⟨114, _⟩ => ⟨S65536x1, .i32⟩
  | .hbm, ⟨115, _⟩ => ⟨S65536x1, .i1⟩
  | .hbm, ⟨116, _⟩ => ⟨S65536x1, .i1⟩
  | .hbm, ⟨117, _⟩ => ⟨S_, .i1⟩
  | .hbm, ⟨118, _⟩ => ⟨S65536, .i1⟩
  | .hbm, ⟨119, _⟩ => ⟨S65536, .f32⟩
  | .hbm, ⟨120, _⟩ => ⟨S_, .f32⟩
  | .hbm, ⟨121, _⟩ => ⟨S65536, .f32⟩
  | .hbm, ⟨122, _⟩ => ⟨S65536, .f32⟩
  | .hbm, ⟨123, _⟩ => ⟨S1x1, .f32⟩
  | .hbm, ⟨124, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024, .f32⟩
  | .local _ .vmem, ⟨7, _⟩ => ⟨S1024, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v6 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v7 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v8 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_c_1 : Ref sig .tc := ⟨.hbm, 87, rfl⟩
abbrev main_call3_c_2 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_3 : Ref sig .tc := ⟨.hbm, 95, rfl⟩
abbrev main_call3_v12 : Ref sig .tc := ⟨.hbm, 96, rfl⟩
abbrev main_call3_v13 : Ref sig .tc := ⟨.hbm, 97, rfl⟩
abbrev main_call3_c_4 : Ref sig .tc := ⟨.hbm, 98, rfl⟩
abbrev main_call3_v14 : Ref sig .tc := ⟨.hbm, 99, rfl⟩
abbrev main_v9 : Ref sig .tc := ⟨.hbm, 100, rfl⟩
abbrev main_call4_c : Ref sig .tc := ⟨.hbm, 101, rfl⟩
abbrev main_call4_v0 : Ref sig .tc := ⟨.hbm, 102, rfl⟩
abbrev main_call4_v1 : Ref sig .tc := ⟨.hbm, 103, rfl⟩
abbrev main_call4_c_0 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_c_1 : Ref sig .tc := ⟨.hbm, 109, rfl⟩
abbrev main_call4_c_2 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_c_3 : Ref sig .tc := ⟨.hbm, 117, rfl⟩
abbrev main_call4_v12 : Ref sig .tc := ⟨.hbm, 118, rfl⟩
abbrev main_call4_v13 : Ref sig .tc := ⟨.hbm, 119, rfl⟩
abbrev main_call4_cst : Ref sig .tc := ⟨.hbm, 120, rfl⟩
abbrev main_call4_v14 : Ref sig .tc := ⟨.hbm, 121, rfl⟩
abbrev main_v10 : Ref sig .tc := ⟨.hbm, 122, rfl⟩
abbrev main_v11 : Ref sig .tc := ⟨.hbm, 123, rfl⟩
abbrev main_v12 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v58 : BitVec 1 := Scalar.cmpi .eq arg0 c63_i32
  let v59 : BitVec 32 := Scalar.extui v58
  let c0_i32_26 : BitVec 32 := 0#32
  let v60 : BitVec 1 := Scalar.cmpi .ne v59 c0_i32_26
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  slices_S65536x3_S65536x1_0_0 : S65536x3.Slices ![0, 0] S65536x1
  shapeCasts_S65536x1_S65536 : S65536x1.ShapeCasts S65536
  slices_S65536x3_S65536x1_0_1 : S65536x3.Slices ![0, 1] S65536x1
  slices_S65536x3_S65536x1_0_2 : S65536x3.Slices ![0, 2] S65536x1
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536x1_S65536_d1 : S65536x1.ReducesTo [1] S65536
  h_S_ : 0 < S_.numel
  bcast_S65536_S65536x512_0 : S65536.BroadcastsInDim S65536x512 (![0] : Fin 1 → Fin S65536x512.rank)
  bcast_S_S65536x512 : S_.BroadcastsInDim S65536x512 (![] : Fin 0 → Fin S65536x512.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024_S1024_0 : ∀ a, (![0] : Fin 1 → Nat) a + S1024.size a ≤ S1024.size a
  h_S1024 : 0 < S1024.numel
  shapeCasts_S1024_S1024 : S1024.ShapeCasts S1024
  shapeCasts_S1024_S1024x1 : S1024.ShapeCasts S1024x1
  reduces_S1024x512_S1024 : S1024x512.Reduces [1] S1024
  natLt_1_32 : 1 < 32
  reduces_S1024x1_S1 : S1024x1.Reduces [0] S1
  shapeCasts_S1_S1x1 : S1.ShapeCasts S1x1
  shapeCasts_S1x1_S_ : S1x1.ShapeCasts S_
  gather_S4096x512_S65536x1_S65536x512_1_0_n_n_0_1_1512_wf : GatherDims.WF S4096x512 S65536x1 S65536x512 [1] [0] [] [0] [] 1 ![1, 512]
  gather_S4096_S65536x1_S65536_n_0_n_n_0_1_1_wf : GatherDims.WF S4096 S65536x1 S65536 [] [0] [] [0] [] 1 ![1]
  gather_S100_S65536x1_S65536_n_0_n_n_0_1_1_wf : GatherDims.WF S100 S65536x1 S65536 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S65536x512.size a
  hwx0_2 : ∀ i : grid0.Coords, EltTy.bits .f32 = 32 ∨ (Rect.block (s := S65536x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S65536.size a
  hwx0_3 : ∀ i : grid0.Coords, EltTy.bits .f32 = 32 ∨ (Rect.block (s := S65536) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def gather_S4096x512_S65536x1_S65536x512_1_0_n_n_0_1_1512 : GatherDims S4096x512 S65536x1 S65536x512 where
  offsetDims := [1]
  collapsedSliceDims := [0]
  operandBatchingDims := []
  startIndicesBatchingDims := []
  startIndexMap := [0]
  indexVectorDim := 1
  sliceSizes := ![1, 512]
  wf := gather_S4096x512_S65536x1_S65536x512_1_0_n_n_0_1_1512_wf
def gather_S4096_S65536x1_S65536_n_0_n_n_0_1_1 : GatherDims S4096 S65536x1 S65536 where
  offsetDims := []
  collapsedSliceDims := [0]
  operandBatchingDims := []
  startIndicesBatchingDims := []
  startIndexMap := [0]
  indexVectorDim := 1
  sliceSizes := ![1]
  wf := gather_S4096_S65536x1_S65536_n_0_n_n_0_1_1_wf
def gather_S100_S65536x1_S65536_n_0_n_n_0_1_1 : GatherDims S100 S65536x1 S65536 where
  offsetDims := []
  collapsedSliceDims := [0]
  operandBatchingDims := []
  startIndicesBatchingDims := []
  startIndexMap := [0]
  indexVectorDim := 1
  sliceSizes := ![1]
  wf := gather_S100_S65536x1_S65536_n_0_n_n_0_1_1_wf

abbrev win0_0 : Pipeline.Window sig grid0 :=
  Pipeline.Window.ofSpec (Memref.whole main_v6) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S100 : Shape := ⟨1, ![100]⟩
abbrev S4096 : Shape := ⟨1, ![4096]⟩
abbrev S65536x3 : Shape := ⟨2, ![65536, 3]⟩
abbrev S65536x1 : Shape := ⟨2, ![65536, 1]⟩
abbrev S65536 : Shape := ⟨1, ![65536]⟩
abbrev S_ : Shape := ⟨0, ![]⟩
abbrev S65536x512 : Shape := ⟨2, ![65536, 512]⟩

abbrev nBuf : Space → Nat
  | .hbm => 106
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S100, .f32⟩
  | .hbm, ⟨2, _⟩ => ⟨S4096, .i32⟩
  | .hbm, ⟨3, _⟩ => ⟨S65536x3, .i32⟩
  | .hbm, ⟨4, _⟩ => ⟨S65536x1, .i32⟩
  | .hbm, ⟨5, _⟩ => ⟨S65536, .i32⟩
  | .hbm, ⟨6, _⟩ => ⟨S_, .i32⟩
  | .hbm, ⟨7, _⟩ => ⟨S65536, .i32⟩
  | .hbm, ⟨8, _⟩ => ⟨S65536, .i1⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S65536x1, .i32⟩
  | .hbm, ⟨14, _⟩ => ⟨S65536x512, .f32⟩
  | .hbm, ⟨15, _⟩ => ⟨S65536x1, .i32⟩
  | .hbm, ⟨16, _⟩ => ⟨S65536, .i32⟩
  | .hbm, ⟨17, _⟩ => ⟨S_, .i32⟩
  | .hbm, ⟨18, _⟩ => ⟨S65536, .i32⟩
  | .hbm, ⟨19, _⟩ => ⟨S65536, .i1⟩
  | .hbm, ⟨20, _⟩ => ⟨S_, .i32⟩
  | .hbm, ⟨21, _⟩ => ⟨S65536, .i32⟩
  | .hbm, ⟨22, _⟩ => ⟨S65536, .i32⟩
  | .hbm, ⟨23, _⟩ => ⟨S65536, .i32⟩
  | .hbm, ⟨24, _⟩ => ⟨S65536x1, .i32⟩
  | .hbm, ⟨25, _⟩ => ⟨S65536x512, .f32⟩
  | .hbm, ⟨26, _⟩ => ⟨S65536x1, .i32⟩
  | .hbm, ⟨27, _⟩ => ⟨S65536, .i32⟩
  | .hbm, ⟨28, _⟩ => ⟨S_, .i32⟩
  | .hbm, ⟨29, _⟩ => ⟨S65536, .i32⟩
  | .hbm, ⟨30, _⟩ => ⟨S65536, .i1⟩
  | .hbm, ⟨31, _⟩ => ⟨S_, .i32⟩
  | .hbm, ⟨32, _⟩ => ⟨S65536, .i32⟩
  | .hbm, ⟨33, _⟩ => ⟨S65536, .i32⟩
  | .hbm, ⟨34, _⟩ => ⟨S65536, .i32⟩
  | .hbm, ⟨35, _⟩ => ⟨S65536x1, .i32⟩
  | .hbm, ⟨36, _⟩ => ⟨S65536x512, .f32⟩
  | .hbm, ⟨37, _⟩ => ⟨S65536x512, .f32⟩
  | .hbm, ⟨38, _⟩ => ⟨S65536x512, .f32⟩
  | .hbm, ⟨39, _⟩ => ⟨S_, .f32⟩
  | .hbm, ⟨40, _⟩ => ⟨S65536, .f32⟩
  | .hbm, ⟨41, _⟩ => ⟨S_, .f32⟩
  | .hbm, ⟨42, _⟩ => ⟨S65536, .f32⟩
  | .hbm, ⟨43, _⟩ => ⟨S65536, .f32⟩
  | .hbm, ⟨44, _⟩ => ⟨S65536, .f32⟩
  | .hbm, ⟨45, _⟩ => ⟨S65536x512, .f32⟩
  | .hbm, ⟨46, _⟩ => ⟨S65536x512, .f32⟩
  | .hbm, ⟨47, _⟩ => ⟨S_, .f32⟩
  | .hbm, ⟨48, _⟩ => ⟨S65536, .f32⟩
  | .hbm, ⟨49, _⟩ => ⟨S_, .f32⟩
  | .hbm, ⟨50, _⟩ => ⟨S65536, .f32⟩
  | .hbm, ⟨51, _⟩ => ⟨S65536, .f32⟩
  | .hbm, ⟨52, _⟩ => ⟨S65536, .f32⟩
  | .hbm, ⟨53, _⟩ => ⟨S65536x1, .i32⟩
  | .hbm, ⟨54, _⟩ => ⟨S65536, .i32⟩
  | .hbm, ⟨55, _⟩ => ⟨S_, .i32⟩
  | .hbm, ⟨56, _⟩ => ⟨S65536, .i32⟩
  | .hbm, ⟨57, _⟩ => ⟨S65536, .i1⟩
  | .hbm, ⟨58, _⟩ => ⟨S_, .i32⟩
  | .hbm, ⟨59, _⟩ => ⟨S65536, .i32⟩
  | .hbm, ⟨60, _⟩ => ⟨S65536, .i32⟩
  | .hbm, ⟨61, _⟩ => ⟨S65536, .i32⟩
  | .hbm, ⟨62, _⟩ => ⟨S65536x1, .i32⟩
  | .hbm, ⟨63, _⟩ => ⟨S65536, .i32⟩
  | .hbm, ⟨64, _⟩ => ⟨S_, .i32⟩
  | .hbm, ⟨65, _⟩ => ⟨S65536, .i32⟩
  | .hbm, ⟨66, _⟩ => ⟨S65536, .i1⟩
  | .hbm, ⟨67, _⟩ => ⟨S_, .i32⟩
  | .hbm, ⟨68, _⟩ => ⟨S65536, .i32⟩
  | .hbm, ⟨69, _⟩ => ⟨S65536, .i32⟩
  | .hbm, ⟨70, _⟩ => ⟨S65536, .i32⟩
  | .hbm, ⟨71, _⟩ => ⟨S65536x1, .i32⟩
  | .hbm, ⟨72, _⟩ => ⟨S65536, .f32⟩
  | .hbm, ⟨73, _⟩ => ⟨S65536, .f32⟩
  | .hbm, ⟨74, _⟩ => ⟨S_, .f32⟩
  | .hbm, ⟨75, _⟩ => ⟨S65536, .f32⟩
  | .hbm, ⟨76, _⟩ => ⟨S65536, .f32⟩
  | .hbm, ⟨77, _⟩ => ⟨S_, .f32⟩
  | .hbm, ⟨78, _⟩ => ⟨S65536, .f32⟩
  | .hbm, ⟨79, _⟩ => ⟨S65536, .f32⟩
  | .hbm, ⟨80, _⟩ => ⟨S65536, .f32⟩
  | .hbm, ⟨81, _⟩ => ⟨S_, .f32⟩
  | .hbm, ⟨82, _⟩ => ⟨S65536, .f32⟩
  | .hbm, ⟨83, _⟩ => ⟨S65536, .f32⟩
  | .hbm, ⟨84, _⟩ => ⟨S_, .f32⟩
  | .hbm, ⟨85, _⟩ => ⟨S65536, .f32⟩
  | .hbm, ⟨86, _⟩ => ⟨S65536, .f32⟩
  | .hbm, ⟨87, _⟩ => ⟨S_, .f32⟩
  | .hbm, ⟨88, _⟩ => ⟨S65536, .f32⟩
  | .hbm, ⟨89, _⟩ => ⟨S65536, .i1⟩
  | .hbm, ⟨90, _⟩ => ⟨S_, .f32⟩
  | .hbm, ⟨91, _⟩ => ⟨S65536, .f32⟩
  | .hbm, ⟨92, _⟩ => ⟨S65536, .i1⟩
  | .hbm, ⟨93, _⟩ => ⟨S65536, .i1⟩
  | .hbm, ⟨94, _⟩ => ⟨S65536, .f32⟩
  | .hbm, ⟨95, _⟩ => ⟨S_, .f32⟩
  | .hbm, ⟨96, _⟩ => ⟨S_, .f32⟩
  | .hbm, ⟨97, _⟩ => ⟨S65536, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .i1⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_8 : Ref sig .tc := ⟨.hbm, 55, rfl⟩
abbrev main_v41 : Ref sig .tc := ⟨.hbm, 56, rfl⟩
abbrev main_v42 : Ref sig .tc := ⟨.hbm, 57, rfl⟩
abbrev main_c_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_10 : Ref sig .tc := ⟨.hbm, 64, rfl⟩
abbrev main_v48 : Ref sig .tc := ⟨.hbm, 65, rfl⟩
abbrev main_v49 : Ref sig .tc := ⟨.hbm, 66, rfl⟩
abbrev main_c_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_call0_cst : Ref sig .tc := ⟨.hbm, 77, rfl⟩
abbrev main_call0_v0 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_v64 : Ref sig .tc := ⟨.hbm, 89, rfl⟩
abbrev main_cst_15 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_cst_17 : Ref sig .tc := ⟨.hbm, 98, rfl⟩
abbrev main_v71 : Ref sig .tc := ⟨.hbm, 99, rfl⟩
abbrev main_cst_18 : Ref sig .tc := ⟨.hbm, 100, rfl⟩
abbrev main_v72 : Ref sig .tc := ⟨.hbm, 101, rfl⟩
abbrev main_cst_19 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]

class Facts₀ : Prop where
  slices_S65536x3_S65536x1_0_0 : S65536x3.Slices ![0, 0] S65536x1
  shapeCasts_S65536x1_S65536 : S65536x1.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  slices_S65536x3_S65536x1_0_1 : S65536x3.Slices ![0, 1] S65536x1
  slices_S65536x3_S65536x1_0_2 : S65536x3.Slices ![0, 2] S65536x1
  reducesTo_S65536x512_S65536_d1 : S65536x512.ReducesTo [1] S65536
  h_S_ : 0 < S_.numel
  reducesTo_S65536_S_d0 : S65536.ReducesTo [0] S_
  gather_S4096x512_S65536x1_S65536x512_1_0_n_n_0_1_1512_wf : GatherDims.WF S4096x512 S65536x1 S65536x512 [1] [0] [] [0] [] 1 ![1, 512]
  gather_S4096_S65536x1_S65536_n_0_n_n_0_1_1_wf : GatherDims.WF S4096 S65536x1 S65536 [] [0] [] [0] [] 1 ![1]
  gather_S100_S65536x1_S65536_n_0_n_n_0_1_1_wf : GatherDims.WF S100 S65536x1 S65536 [] [0] [] [0] [] 1 ![1]

variable [Facts₀]

def gather_S4096x512_S65536x1_S65536x512_1_0_n_n_0_1_1512 : GatherDims S4096x512 S65536x1 S65536x512 where
  offsetDims := [1]
  collapsedSliceDims := [0]
  operandBatchingDims := []
  startIndicesBatchingDims := []
  startIndexMap := [0]
  indexVectorDim := 1
  sliceSizes := ![1, 512]
  wf := gather_S4096x512_S65536x1_S65536x512_1_0_n_n_0_1_1512_wf
def gather_S4096_S65536x1_S65536_n_0_n_n_0_1_1 : GatherDims S4096 S65536x1 S65536 where
  offsetDims := []
  collapsedSliceDims := [0]
  operandBatchingDims := []
  startIndicesBatchingDims := []
  startIndexMap := [0]
  indexVectorDim := 1
  sliceSizes := ![1]
  wf := gather_S4096_S65536x1_S65536_n_0_n_n_0_1_1_wf
def gather_S100_S65536x1_S65536_n_0_n_n_0_1_1 : GatherDims S100 S65536x1 S65536 where
  offsetDims := []
  collapsedSliceDims := [0]
  operandBatchingDims := []
  startIndicesBatchingDims := []
  startIndexMap := [0]
  indexVectorDim := 1
  sliceSizes := ![1]
  wf := gather_S100_S65536x1_S65536_n_0_n_n_0_1_1_wf

class Facts : Prop extends Facts₀ where

variable [Facts]
-- ==== Proof.KernelPieces.lean ====
/-
  What one grid point leaves behind, case by case, as the body's payload terms.

  The kernel keeps two one-entry accumulators between grid points: the running total of the hinges and the running
  count of active triplets. At the first point both are reset to zero and then advanced by the first block; at every
  later point they are advanced by that point's block from what the point before left; at the last point the output
  entry is, in addition, the final quotient of the two advanced accumulators.
-/
import proofs.«422218_j188978561412_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- A later point: the total advanced from what the point before left. -/
theorem total_B (c : Dev nD) (i : grid0.Coords) (a1 : Memref sig .tc .vmem S1024x512 .f32) (h1 : a1.IsWhole) (a2 : Memref sig .tc .vmem S1024x512 .f32) (h2 : a2.IsWhole) (a3 : Memref sig .tc .vmem S1024x512 .f32) (h3 : a3.IsWhole) (a4 : Memref sig .tc .vmem S1024 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : ¬cond0_1 i)
    (x0 x1 x2 : Vec F S1024x512 .f32) (x3 : Vec F S1024 .f32) (xs0 xs1 : Vec F S1x1 .f32) :
    sout0_B_0 c i a1 h1 a2 h2 a3 h3 a4 h4 a5 h5 a6 h6 a7 h7 hc0 hc1 x0 x1 x2 x3 xs0 xs1 = k0_pay1 (k0_pay8 x0 x1 x3) (k0_pay9 x0 x2 x3) xs0 := by
  unfold sout0_B_0
  rw [View.read_writes_eq_canon _ _ _ (scover0_B_0 c i a1 h1 a2 h2 a3 h3 a4 h4 a5 h5 a6 h6 a7 h7 hc0 hc1 x0 x1 x2 x3 xs0 xs1)]
  unfold kernelRun0_B
  dsimp only
  sl_unfold_words
  rw [View.canon_unit_zero hz]
  simp only [View.readAt_eq_ld, h1.read_unread, h2.read_unread, h3.read_unread, h4.read_unread, h6.read_unread, h7.read_unread,
    View.ld_unit_zero (S := S1024x512) hz, View.ld_unit_zero (S := S1x1) hz, View.ld_unit_zero (S := S1024) hz1]

/-- A later point: the count advanced from what the point before left. -/
theorem count_B (c : Dev nD) (i : grid0.Coords) (a1 : Memref sig .tc .vmem S1024x512 .f32) (h1 : a1.IsWhole) (a2 : Memref sig .tc .vmem S1024x512 .f32) (h2 : a2.IsWhole) (a3 : Memref sig .tc .vmem S1024x512 .f32) (h3 : a3.IsWhole) (a4 : Memref sig .tc .vmem S1024 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : ¬cond0_1 i)
    (x0 x1 x2 : Vec F S1024x512 .f32) (x3 : Vec F S1024 .f32) (xs0 xs1 : Vec F S1x1 .f32) :
    sout0_B_1 c i a1 h1 a2 h2 a3 h3 a4 h4 a5 h5 a6 h6 a7 h7 hc0 hc1 x0 x1 x2 x3 xs0 xs1
      = k0_pay2 (k0_pay9 x0 x2 x3) (k0_pay10 x0 x1 x3) (k0_pay11 (F := F)) xs1 := by
  unfold sout0_B_1
  rw [View.read_writes_eq_canon _ _ _ (scover0_B_1 c i a1 h1 a2 h2 a3 h3 a4 h4 a5 h5 a6 h6 a7 h7 hc0 hc1 x0 x1 x2 x3 xs0 xs1)]
  unfold kernelRun0_B
  dsimp only
  sl_unfold_words
  rw [View.canon_unit_zero hz]
  simp only [View.readAt_eq_ld, h1.read_unread, h2.read_unread, h3.read_unread, h4.read_unread, h6.read_unread, h7.read_unread,
    View.ld_unit_zero (S := S1024x512) hz, View.ld_unit_zero (S := S1x1) hz, View.ld_unit_zero (S := S1024) hz1]

/-- The last point: the total advanced as at any later point. -/
theorem total_C (c : Dev nD) (i : grid0.Coords) (a1 : Memref sig .tc .vmem S1024x512 .f32) (h1 : a1.IsWhole) (a2 : Memref sig .tc .vmem S1024x512 .f32) (h2 : a2.IsWhole) (a3 : Memref sig .tc .vmem S1024x512 .f32) (h3 : a3.IsWhole) (a4 : Memref sig .tc .vmem S1024 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i)
    (x0 x1 x2 : Vec F S1024x512 .f32) (x3 : Vec F S1024 .f32) (xs0 xs1 : Vec F S1x1 .f32) :
    sout0_C_0 c i a1 h1 a2 h2 a3 h3 a4 h4 a5 h5 a6 h6 a7 h7 hc0 hc1 x0 x1 x2 x3 xs0 xs1 = k0_pay1 (k0_pay8 x0 x1 x3) (k0_pay9 x0 x2 x3) xs0 := by
  unfold sout0_C_0
  rw [View.read_writes_eq_canon _ _ _ (scover0_C_0 c i a1 h1 a2 h2 a3 h3 a4 h4 a5 h5 a6 h6 a7 h7 hc0 hc1 x0 x1 x2 x3 xs0 xs1)]
  unfold kernelRun0_C
  dsimp only
  sl_unfold_words
  rw [View.canon_unit_zero hz]
  simp only [View.readAt_eq_ld, h1.read_unread, h2.read_unread, h3.read_unread, h4.read_unread, h6.read_unread, h7.read_unread,
    View.ld_unit_zero (S := S1024x512) hz, View.ld_unit_zero (S := S1x1) hz, View.ld_unit_zero (S := S1024) hz1]

/-- The last point: the count advanced as at any later point. -/
theorem count_C (c : Dev nD) (i : grid0.Coords) (a1 : Memref sig .tc .vmem S1024x512 .f32) (h1 : a1.IsWhole) (a2 : Memref sig .tc .vmem S1024x512 .f32) (h2 : a2.IsWhole) (a3 : Memref sig .tc .vmem S1024x512 .f32) (h3 : a3.IsWhole) (a4 : Memref sig .tc .vmem S1024 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i)
    (x0 x1 x2 : Vec F S1024x512 .f32) (x3 : Vec F S1024 .f32) (xs0 xs1 : Vec F S1x1 .f32) :
    sout0_C_1 c i a1 h1 a2 h2 a3 h3 a4 h4 a5 h5 a6 h6 a7 h7 hc0 hc1 x0 x1 x2 x3 xs0 xs1
      = k0_pay2 (k0_pay9 x0 x2 x3) (k0_pay10 x0 x1 x3) (k0_pay11 (F := F)) xs1 := by
  unfold sout0_C_1
  rw [View.read_writes_eq_canon _ _ _ (scover0_C_1 c i a1 h1 a2 h2 a3 h3 a4 h4 a5 h5 a6 h6 a7 h7 hc0 hc1 x0 x1 x2 x3 xs0 xs1)]
  unfold kernelRun0_C
  dsimp only
  sl_unfold_words
  rw [View.canon_unit_zero hz]
  simp only [View.readAt_eq_ld, h1.read_unread, h2.read_unread, h3.read_unread, h4.read_unread, h6.read_unread, h7.read_unread,
    View.ld_unit_zero (S := S1024x512) hz, View.ld_unit_zero (S := S1x1) hz, View.ld_unit_zero (S := S1024) hz1]

/-- The last point: the output entry is the final quotient of the two accumulators as that point leaves them. -/
theorem out_C (c : Dev nD) (i : grid0.Coords) (a1 : Memref sig .tc .vmem S1024x512 .f32) (h1 : a1.IsWhole) (a2 : Memref sig .tc .vmem S1024x512 .f32) (h2 : a2.IsWhole) (a3 : Memref sig .tc .vmem S1024x512 .f32) (h3 : a3.IsWhole) (a4 : Memref sig .tc .vmem S1024 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i)
    (x0 x1 x2 : Vec F S1024x512 .f32) (x3 : Vec F S1024 .f32) (xs0 xs1 : Vec F S1x1 .f32) :
    out0_C_4 c i a1 h1 a2 h2 a3 h3 a4 h4 a5 h5 a6 h6 a7 h7 hc0 hc1 x0 x1 x2 x3 xs0 xs1
      = k0_pay3 (k0_pay1 (k0_pay8 x0 x1 x3) (k0_pay9 x0 x2 x3) xs0)
          (k0_pay2 (k0_pay9 x0 x2 x3) (k0_pay10 x0 x1 x3) (k0_pay11 (F := F)) xs1) := by
  unfold out0_C_4
  rw [View.read_writes_eq_canon _ _ _ (cover0_C_4 c i a1 h1 a2 h2 a3 h3 a4 h4 a5 h5 a6 h6 a7 h7 hc0 hc1 x0 x1 x2 x3 xs0 xs1)]
  unfold kernelRun0_C
  dsimp only
  sl_unfold_words
  rw [View.canon_unit_zero hz]
  simp only [View.readAt_eq_ld, h1.read_unread, h2.read_unread, h3.read_unread, h4.read_unread, h6.read_unread, h7.read_unread,
    View.readCov_unit_zero (S := S1x1) _ hz,
    View.ld_unit_zero (S := S1024x512) hz, View.ld_unit_zero (S := S1x1) hz, View.ld_unit_zero (S := S1024) hz1]

/-- The first point: the total is reset to the zero entry and advanced by the first block. -/
theorem total_A (c : Dev nD) (i : grid0.Coords) (a1 : Memref sig .tc .vmem S1024x512 .f32) (h1 : a1.IsWhole) (a2 : Memref sig .tc .vmem S1024x512 .f32) (h2 : a2.IsWhole) (a3 : Memref sig .tc .vmem S1024x512 .f32) (h3 : a3.IsWhole) (a4 : Memref sig .tc .vmem S1024 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : cond0_0 i) (hc1 : ¬cond0_1 i)
    (x0 x1 x2 : Vec F S1024x512 .f32) (x3 : Vec F S1024 .f32) :
    sout0_A_0 c i a1 h1 a2 h2 a3 h3 a4 h4 a5 h5 a6 h6 a7 h7 hc0 hc1 x0 x1 x2 x3 = k0_pay1 (k0_pay8 x0 x1 x3) (k0_pay9 x0 x2 x3) (k0_pay4 (F := F)) := by
  unfold sout0_A_0
  rw [View.read_writes_eq_canon _ _ _ (scover0_A_0 c i a1 h1 a2 h2 a3 h3 a4 h4 a5 h5 a6 h6 a7 h7 hc0 hc1 x0 x1 x2 x3)]
  unfold kernelRun0_A
  dsimp only
  sl_unfold_words
  rw [View.canon_cons_unit_zero (S := S1x1) hz]
  simp only [View.readAt_eq_ld, h1.read_unread, h2.read_unread, h3.read_unread, h4.read_unread, h6.read_unread, h7.read_unread,
    View.readCov_unit_zero (S := S1x1) _ hz,
    View.ld_unit_zero (S := S1024x512) hz, View.ld_unit_zero (S := S1x1) hz, View.ld_unit_zero (S := S1024) hz1]

/-- The first point: the count is reset to the zero entry and advanced by the first block. -/
theorem count_A (c : Dev nD) (i : grid0.Coords) (a1 : Memref sig .tc .vmem S1024x512 .f32) (h1 : a1.IsWhole) (a2 : Memref sig .tc .vmem S1024x512 .f32) (h2 : a2.IsWhole) (a3 : Memref sig .tc .vmem S1024x512 .f32) (h3 : a3.IsWhole) (a4 : Memref sig .tc .vmem S1024 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc0 : cond0_0 i) (hc1 : ¬cond0_1 i)
    (x0 x1 x2 : Vec F S1024x512 .f32) (x3 : Vec F S1024 .f32) :
    sout0_A_1 c i a1 h1 a2 h2 a3 h3 a4 h4 a5 h5 a6 h6 a7 h7 hc0 hc1 x0 x1 x2 x3
      = k0_pay2 (k0_pay9 x0 x2 x3) (k0_pay10 x0 x1 x3) (k0_pay11 (F := F)) (k0_pay5 (F := F)) := by
  unfold sout0_A_1
  rw [View.read_writes_eq_canon _ _ _ (scover0_A_1 c i a1 h1 a2 h2 a3 h3 a4 h4 a5 h5 a6 h6 a7 h7 hc0 hc1 x0 x1 x2 x3)]
  unfold kernelRun0_A
  dsimp only
  sl_unfold_words
  rw [View.canon_cons_unit_zero (S := S1x1) hz]
  simp only [View.readAt_eq_ld, h1.read_unread, h2.read_unread, h3.read_unread, h4.read_unread, h6.read_unread, h7.read_unread,
    View.readCov_unit_zero (S := S1x1) _ hz,
    View.ld_unit_zero (S := S1024x512) hz, View.ld_unit_zero (S := S1x1) hz, View.ld_unit_zero (S := S1024) hz1]

end Cert.KernelIdeal.Pieces

end
-- ==== Proof.Spec.lean ====
/-
  The triplet margin loss as ONE function of four arrays, on the extended reals.

  For triplet `i` let `a i`, `p i`, `n i` be the anchor, positive and negative rows (512 entries each) and `b i`
  the margin offset of the anchor's class. With `d(x, y) = √(Σ_l (x_l − y_l)² + ε)`,
    pos i = max (d(a i, p i) − b i + margin) 0,      neg i = max (b i − d(a i, n i) + margin) 0,
    total = Σ_i (pos i + neg i),                      count = Σ_i [pos i > 0 or neg i > 0],
    loss  = total / max count 1  if count > 0, else total.
  Both programs compute this; they differ in how the sums over the 65536 triplets are grouped: one sum on one
  side, 64 blocks of 1024 rows accumulated one after the other on the other. Addition on the extended reals is
  commutative and associative, so the two groupings agree (`sum_blocks`); no finiteness is used.
-/
import Idealize.ShloMosaic.PureOps.Ideal
import Idealize.ShloMosaic.PureOps.Ideal.Laws
import Idealize.ShloMosaic.Lib.ValueIdx

noncomputable section

namespace Cert.TripletLoss

open Idealize.ShloMosaic Idealize.ShloMosaic.ValueIdx
open scoped BigOperators

/-- One row of an embedding array. -/
abbrev Row := Fin 512 → EReal

/-- ε, the margin, zero and one: the words both programs carry, read on the extended reals. -/
abbrev epsV : EReal := Ideal.ofBits .f32 0x322BCC77#32
abbrev marginV : EReal := Ideal.ofBits .f32 0x3E4CCCCD#32
abbrev zeroV : EReal := Ideal.ofBits .f32 0x00000000#32
abbrev oneV : EReal := Ideal.ofBits .f32 0x3F800000#32

theorem zeroV_eq : zeroV = 0 := Ideal.ofBits_zero_f32

/-- `√(‖x − y‖² + ε)`. -/
def dist (x y : Row) : EReal := Ideal.sqrt ((∑ l : Fin 512, (x l - y l) * (x l - y l)) + epsV)

/-- The positive hinge `max (d(a, p) − b + margin) 0`. -/
def posTerm (a p : Row) (b : EReal) : EReal := max (dist a p - b + marginV) zeroV

/-- The negative hinge `max (b − d(a, n) + margin) 0`. -/
def negTerm (a n : Row) (b : EReal) : EReal := max (b - dist a n + marginV) zeroV

/-- The bit "either hinge is active". -/
def activeBit (x y : EReal) : BitVec 1 := IntOp.ori (Ideal.cmp .ogt x zeroV) (Ideal.cmp .ogt y zeroV)

/-- That bit as a number, 0 or 1. -/
def activeTerm (x y : EReal) : EReal := (((activeBit x y).toNat : ℝ) : EReal)

/-- A bit widened to a word and read signed is the bit read unsigned: 0 or 1 either way. -/
theorem toInt_setWidth_bit (b : BitVec 1) : (((b.setWidth 32).toInt : ℝ) : EReal) = ((b.toNat : ℝ) : EReal) := by
  rcases BitVec.eq_zero_or_eq_one b with h | h <;> subst h <;> simp

/-- The final quotient: `t / max c 1` when `c > 0`, else `t`. -/
def finish (t c : EReal) : EReal := Scalar.select (Ideal.cmp .ogt c zeroV) (Ideal.div t (max c oneV)) t

section arrays

variable (A P N : Fin 65536 → Row) (B : Fin 65536 → EReal)

/-- Triplet `i`'s two hinges added. -/
def rowLoss (i : Fin 65536) : EReal := posTerm (A i) (P i) (B i) + negTerm (A i) (N i) (B i)

/-- Triplet `i`'s activity, 0 or 1. -/
def rowActive (i : Fin 65536) : EReal := activeTerm (posTerm (A i) (P i) (B i)) (negTerm (A i) (N i) (B i))

/-- The sum of all hinges. -/
def total : EReal := ∑ i : Fin 65536, rowLoss A P N B i

/-- The number of active triplets. -/
def count : EReal := ∑ i : Fin 65536, rowActive A P N B i

/-- The loss. -/
def loss : EReal := finish (total A P N B) (count A P N B)

end arrays

/-- A 65536 × 512 array as its rows. -/
def rows (X : (⟨2, ![65536, 512]⟩ : Shape).Idx → EReal) : Fin 65536 → Row := fun i l => X (ix2 i l)

/-- A length-65536 vector as a function of the position. -/
def vals (b : (⟨1, ![65536]⟩ : Shape).Idx → EReal) : Fin 65536 → EReal := fun i => b (ix1 i)

/-- Row `1024 · t + r`: row `r` of block `t`. -/
def blockRow (t : Fin 64) (r : Fin 1024) : Fin 65536 := ⟨1024 * t.val + r.val, by have := t.isLt; have := r.isLt; omega⟩

/-- A sum over the 65536 rows is the sum over the 64 blocks of the sums over each block's 1024 rows. -/
theorem sum_blocks {M : Type*} [AddCommMonoid M] (f : Fin 65536 → M) :
    ∑ i : Fin 65536, f i = ∑ t : Fin 64, ∑ r : Fin 1024, f (blockRow t r) := by
  rw [← Finset.sum_product' (Finset.univ : Finset (Fin 64)) (Finset.univ : Finset (Fin 1024)) (fun t r => f (blockRow t r))]
  rw [Finset.univ_product_univ]
  refine (Fintype.sum_equiv (finProdFinEquiv (m := 64) (n := 1024)) (fun x => f (blockRow x.1 x.2)) f ?_).symm
  intro x
  refine congrArg f (Fin.ext ?_)
  rw [finProdFinEquiv_apply_val]
  show 1024 * x.1.val + x.2.val = _
  omega

/-- The blocks' partial sums accumulated one after the other from zero give the sum over all blocks. -/
theorem sum_range_blocks {M : Type*} [AddCommMonoid M] (g : Fin 64 → M) :
    ∑ k ∈ Finset.range 64, (if h : k < 64 then g ⟨k, h⟩ else 0) = ∑ t : Fin 64, g t := by
  rw [Finset.sum_fin_eq_sum_range]

end Cert.TripletLoss

end
-- ==== Proof.KernelBody.lean ====
/-
  The kernel body's arithmetic, read entry by entry on the extended reals.

  One grid point sees a block of 1024 triplets: three 1024 × 512 blocks of rows (anchor, positive, negative) and a
  length-1024 block of margin offsets. Its payloads are: the two hinge columns (1024 × 1), the running total and
  the running count each advanced by the block's column sum, and at the last point the final quotient.
-/
import proofs.«422218_j188978561412_2_alg».proof.Proof.Gen.KernelIdeal.Skeleton
import proofs.«422218_j188978561412_2_alg».proof.Proof.Spec
import Idealize.ShloMosaic.Lib.Pipeline.Value
import Idealize.ShloMosaic.Lib.ValueLayout

noncomputable section

namespace Cert.KernelIdeal.Body

open Idealize.ShloMosaic Idealize.ShloMosaic.ValueIdx Cert.KernelIdeal Cert.KernelIdeal.Gen Cert.TripletLoss
open scoped BigOperators

/-- Row `r` of a 1024 × 512 block. -/
def brow (x : Vec Ideal S1024x512 .f32) (r : Fin 1024) : Row := fun l => x (ix2 r l)

/-! ## The operations that are not entry by entry -/

/-- A length-`a` vector viewed as an `a × 1` column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the 512 lanes of a 1024 × 512 block, at row `r`. -/
theorem laneSum_apply (v : FVec Ideal S1024x512 .f32) (h : S1024x512.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ l : Fin 512, v (ix2 r l) := by
  refine (Ideal.multiReduction_add_single v 0x00000000#32 h hφ hacc (ix1 r)).trans ?_
  refine Finset.sum_congr rfl (fun l _ => congrArg v ?_)
  funext a
  refine Fin.ext ?_
  match a with
  | ⟨0, _⟩ => rfl
  | ⟨1, _⟩ => rfl

/-- The sum down the 1024 rows of a 1024 × 1 column, viewed as a 1 × 1 block. -/
theorem colSum_apply (v : FVec Ideal S1024x1 .f32) (h : S1024x1.Reduces [0] S1) (hφ : FKind.Formats .f32)
    (hacc : (0x00000000#32 : BitVec 32) = FKind.add.neutral .f32 hφ) (j : S1x1.Idx) :
    shapeCast S1x1 (multiReduction .add [0] S1 v 0x00000000#32 h hφ hacc) shapeCasts_S1_S1x1 j
      = ∑ r : Fin 1024, v (ix2 r (0 : Fin 1)) := by
  obtain ⟨u, i, rfl⟩ : ∃ (u : Fin 1) (i : Fin 1), j = ix2 u i := ⟨j 0, j 1, eq_ix2 j⟩
  refine (shapeCast_a_1a_apply _ shapeCasts_S1_S1x1 u i).trans ?_
  refine (Ideal.multiReduction_add_single v 0x00000000#32 h hφ hacc (ix1 i)).trans ?_
  refine Finset.sum_congr rfl (fun r _ => congrArg v ?_)
  obtain rfl : i = 0 := Subsingleton.elim _ _
  funext a
  refine Fin.ext ?_
  match a with
  | ⟨0, _⟩ => rfl
  | ⟨1, _⟩ => rfl

/-- The squared distance of rows `r` of two blocks, as the kernel forms it: subtract, square, sum the lanes, view the
    sums as a column. -/
theorem sqdist_apply (x y : Vec Ideal S1024x512 .f32) (r : Fin 1024) (u : Fin 1) :
    shapeCast S1024x1
        (multiReduction .add [1] S1024
          (mulf (subf (k0_pay6 (F := Ideal) x) (shapeCast S1024x512 y shapeCasts_S1024x512_S1024x512))
            (subf (k0_pay6 (F := Ideal) x) (shapeCast S1024x512 y shapeCasts_S1024x512_S1024x512)))
          0x00000000#32 reduces_S1024x512_S1024 (.inl rfl) rfl)
        shapeCasts_S1024_S1024x1 (ix2 r u)
      = ∑ l : Fin 512, (brow x r l - brow y r l) * (brow x r l - brow y r l) := by
  refine (shapeCast_a_a1_apply _ shapeCasts_S1024_S1024x1 r u).trans ?_
  refine (laneSum_apply _ reduces_S1024x512_S1024 (.inl rfl) rfl r).trans ?_
  unfold k0_pay6
  rw [shapeCast_self, shapeCast_self]
  rfl

/-- The margin offsets viewed as a column, at row `r`. -/
theorem offset_apply (x3 : Vec Ideal S1024 .f32) (r : Fin 1024) (u : Fin 1) :
    k0_pay7 (F := Ideal) x3 (ix2 r u) = x3 (ix1 r) := by
  unfold k0_pay7
  rw [shapeCast_self]
  exact shapeCast_a_a1_apply _ shapeCasts_S1024_S1024x1 r u

/-! ## The payloads -/

/-- The positive hinge column at row `r`. -/
theorem pos_apply (x0 x1 : Vec Ideal S1024x512 .f32) (x3 : Vec Ideal S1024 .f32) (r : Fin 1024) :
    k0_pay8 (F := Ideal) x0 x1 x3 (ix2 r (0 : Fin 1)) = posTerm (brow x0 r) (brow x1 r) (x3 (ix1 r)) := by
  -- every remaining operation acts entry by entry: the hinge is one function of the squared distance and the offset
  unfold k0_pay8 posTerm Cert.TripletLoss.dist
  exact congrArg₂ (fun A B : EReal => max (Ideal.sqrt (A + epsV) - B + marginV) zeroV)
    (sqdist_apply x0 x1 r 0) (offset_apply x3 r 0)

/-- The negative hinge column at row `r`. -/
theorem neg_apply (x0 x2 : Vec Ideal S1024x512 .f32) (x3 : Vec Ideal S1024 .f32) (r : Fin 1024) :
    k0_pay9 (F := Ideal) x0 x2 x3 (ix2 r (0 : Fin 1)) = negTerm (brow x0 r) (brow x2 r) (x3 (ix1 r)) := by
  unfold k0_pay9 negTerm Cert.TripletLoss.dist
  exact congrArg₂ (fun A B : EReal => max (B - Ideal.sqrt (A + epsV) + marginV) zeroV)
    (sqdist_apply x0 x2 r 0) (offset_apply x3 r 0)

/-- The running total after a block: what it held plus the block's column sum of both hinges. -/
theorem total_step (v30 v35 : FVec Ideal S1024x1 .f32) (v48 : Vec Ideal S1x1 .f32) (j : S1x1.Idx) :
    k0_pay1 (F := Ideal) v30 v35 v48 j = v48 j + ∑ r : Fin 1024, (v30 (ix2 r (0 : Fin 1)) + v35 (ix2 r (0 : Fin 1))) := by
  unfold k0_pay1
  rw [shapeCast_self]
  exact congrArg (fun t => v48 j + t) (colSum_apply (addf v30 v35) reduces_S1024x1_S1 (.inl rfl) rfl j)

/-- The running count after a block: what it held plus the number of the block's active rows. -/
theorem count_step (x0 x1 x2 : Vec Ideal S1024x512 .f32) (x3 : Vec Ideal S1024 .f32) (v53 : Vec Ideal S1x1 .f32) (j : S1x1.Idx) :
    k0_pay2 (F := Ideal) (k0_pay9 (F := Ideal) x0 x2 x3) (k0_pay10 (F := Ideal) x0 x1 x3) (k0_pay11 (F := Ideal)) v53 j
      = v53 j + ∑ r : Fin 1024, activeTerm (k0_pay8 (F := Ideal) x0 x1 x3 (ix2 r (0 : Fin 1))) (k0_pay9 (F := Ideal) x0 x2 x3 (ix2 r (0 : Fin 1))) := by
  unfold k0_pay2
  rw [shapeCast_self]
  refine congrArg (fun t => v53 j + t) ?_
  refine (colSum_apply _ reduces_S1024x1_S1 (.inl rfl) rfl j).trans ?_
  refine Finset.sum_congr rfl (fun r _ => ?_)
  -- row `r`: the activity bit widened to a word and read signed is the bit read unsigned
  exact toInt_setWidth_bit (activeBit (k0_pay8 (F := Ideal) x0 x1 x3 (ix2 r (0 : Fin 1))) (k0_pay9 (F := Ideal) x0 x2 x3 (ix2 r (0 : Fin 1))))

/-- The final quotient of the accumulated total and count. -/
theorem finish_apply (v61 v62 : Vec Ideal S1x1 .f32) (j : S1x1.Idx) :
    k0_pay3 (F := Ideal) v61 v62 j = finish (v61 j) (v62 j) := rfl

/-- Both accumulators are reset to zero at the first point. -/
theorem reset_total (j : S1x1.Idx) : k0_pay4 (F := Ideal) j = 0 := by
  unfold k0_pay4
  rw [shapeCast_self]
  exact Ideal.ofBits_zero_f32

theorem reset_count (j : S1x1.Idx) : k0_pay5 (F := Ideal) j = 0 := by
  unfold k0_pay5
  rw [shapeCast_self]
  exact Ideal.ofBits_zero_f32

end Cert.KernelIdeal.Body

end
-- ==== Proof.KernelAcc.lean ====
/-
  The two accumulators after each grid point, on the extended reals.

  Block `t` contributes its partial total `T t = Σ_r (pos + neg)` and its partial count `C t = Σ_r active` over its 1024
  rows. The first point resets both accumulators to zero and adds block 0; every later point adds its block to what the
  point before left. So after point `n` the total holds `Σ_{k ≤ n} T k` and the count `Σ_{k ≤ n} C k` (induction on
  the point; `0 + x = x` at the first), and the entry the last point stores is the final quotient of the two full sums.
-/
import proofs.«422218_j188978561412_2_alg».proof.Proof.KernelPieces
import proofs.«422218_j188978561412_2_alg».proof.Proof.KernelBody

set_option maxRecDepth 16384

noncomputable section

namespace Cert.KernelIdeal.Acc

open Idealize.ShloMosaic Idealize.ShloMosaic.TcCoe Idealize.ShloMosaic.ValueIdx Idealize.SL.Sem
open Cert.KernelIdeal Cert.KernelIdeal.Gen Cert.TripletLoss
open scoped BigOperators

variable (m : (ℓ : Loc nD τ sig) → Buf (Elt Ideal) ℓ)

/-- The four input blocks of grid point `t`, at their literal types. -/
abbrev blkA (c : Dev nD) (t : Fin cfg0.N) : Vec Ideal S1024x512 .f32 := iblk m c 0 t
abbrev blkP (c : Dev nD) (t : Fin cfg0.N) : Vec Ideal S1024x512 .f32 := iblk m c 1 t
abbrev blkN (c : Dev nD) (t : Fin cfg0.N) : Vec Ideal S1024x512 .f32 := iblk m c 2 t
abbrev blkB (c : Dev nD) (t : Fin cfg0.N) : Vec Ideal S1024 .f32 := iblk m c 3 t

/-- Block `t`'s two hinge columns. -/
abbrev posCol (c : Dev nD) (t : Fin cfg0.N) : FVec Ideal S1024x1 .f32 := k0_pay8 (F := Ideal) (blkA m c t) (blkP m c t) (blkB m c t)
abbrev negCol (c : Dev nD) (t : Fin cfg0.N) : FVec Ideal S1024x1 .f32 := k0_pay9 (F := Ideal) (blkA m c t) (blkN m c t) (blkB m c t)

/-- Block `t`'s partial total and partial count. -/
def partTotal (c : Dev nD) (t : Fin cfg0.N) : EReal :=
  ∑ r : Fin 1024, (posCol m c t (ix2 r (0 : Fin 1)) + negCol m c t (ix2 r (0 : Fin 1)))
def partCount (c : Dev nD) (t : Fin cfg0.N) : EReal :=
  ∑ r : Fin 1024, activeTerm (posCol m c t (ix2 r (0 : Fin 1))) (negCol m c t (ix2 r (0 : Fin 1)))

/-- The sums of the first `n + 1` blocks' partial totals and counts. -/
def accTotal (c : Dev nD) (n : ℕ) : EReal := ∑ k ∈ Finset.range (n + 1), (if h : k < cfg0.N then partTotal m c ⟨k, h⟩ else 0)
def accCount (c : Dev nD) (n : ℕ) : EReal := ∑ k ∈ Finset.range (n + 1), (if h : k < cfg0.N then partCount m c ⟨k, h⟩ else 0)

theorem accTotal_zero (c : Dev nD) (h : 0 < cfg0.N) : accTotal m c 0 = partTotal m c ⟨0, h⟩ := by
  unfold accTotal; rw [Finset.sum_range_one, dif_pos h]
theorem accCount_zero (c : Dev nD) (h : 0 < cfg0.N) : accCount m c 0 = partCount m c ⟨0, h⟩ := by
  unfold accCount; rw [Finset.sum_range_one, dif_pos h]
theorem accTotal_succ (c : Dev nD) (n : ℕ) (h : n + 1 < cfg0.N) : accTotal m c (n + 1) = accTotal m c n + partTotal m c ⟨n + 1, h⟩ := by
  unfold accTotal; rw [Finset.sum_range_succ _ (n + 1), dif_pos h]
theorem accCount_succ (c : Dev nD) (n : ℕ) (h : n + 1 < cfg0.N) : accCount m c (n + 1) = accCount m c n + partCount m c ⟨n + 1, h⟩ := by
  unfold accCount; rw [Finset.sum_range_succ _ (n + 1), dif_pos h]

/-- One point's update of the total: what it held plus the block's partial total. -/
theorem total_adv (c : Dev nD) (t : Fin cfg0.N) (xs : Vec Ideal S1x1 .f32) (j : S1x1.Idx) :
    k0_pay1 (F := Ideal) (posCol m c t) (negCol m c t) xs j = xs j + partTotal m c t :=
  Body.total_step _ _ _ j

/-- One point's update of the count: what it held plus the block's partial count. -/
theorem count_adv (c : Dev nD) (t : Fin cfg0.N) (xs : Vec Ideal S1x1 .f32) (j : S1x1.Idx) :
    k0_pay2 (F := Ideal) (negCol m c t) (k0_pay10 (F := Ideal) (blkA m c t) (blkP m c t) (blkB m c t)) (k0_pay11 (F := Ideal)) xs j
      = xs j + partCount m c t :=
  Body.count_step _ _ _ _ _ j

/-- After point `n` the two accumulators hold the sums of the first `n + 1` blocks' partial totals and counts. -/
theorem acc_eq (c : Dev nD) : ∀ (n : ℕ) (h : n < cfg0.N) (j : S1x1.Idx),
    (outsAt0 m c n h).2.1 j = accTotal m c n ∧ (outsAt0 m c n h).2.2 j = accCount m c n
  | 0, h, j => by
    have e : outsAt0 m c 0 h = _ := outsAt0_A m c ⟨0, h⟩ rfl (by decide : ¬ (0 % 64 = 63))
    rw [e]
    dsimp only
    constructor
    · refine (congrFun (Pieces.total_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) _ _
        (blkA m c ⟨0, h⟩) (blkP m c ⟨0, h⟩) (blkN m c ⟨0, h⟩) (blkB m c ⟨0, h⟩)) j).trans ?_
      refine (total_adv m c ⟨0, h⟩ _ j).trans ?_
      rw [Body.reset_total, zero_add, accTotal_zero m c h]
    · refine (congrFun (Pieces.count_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) _ _
        (blkA m c ⟨0, h⟩) (blkP m c ⟨0, h⟩) (blkN m c ⟨0, h⟩) (blkB m c ⟨0, h⟩)) j).trans ?_
      refine (count_adv m c ⟨0, h⟩ _ j).trans ?_
      rw [Body.reset_count, zero_add, accCount_zero m c h]
  | n + 1, h, j => by
    have hN : cfg0.N = 64 := N_0
    have h0 : ¬(⟨n + 1, h⟩ : Fin cfg0.N).val % 64 = 0 := by dsimp only; omega
    have ih := acc_eq c n (Nat.lt_of_succ_lt h) j
    by_cases h1 : (⟨n + 1, h⟩ : Fin cfg0.N).val % 64 = 63
    · rw [outsAt0_C m c ⟨n + 1, h⟩ h0 h1]
      dsimp only
      constructor
      · refine (congrFun (Pieces.total_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _
          (blkA m c ⟨n + 1, h⟩) (blkP m c ⟨n + 1, h⟩) (blkN m c ⟨n + 1, h⟩) (blkB m c ⟨n + 1, h⟩) (outsAt0 m c n (Nat.lt_of_succ_lt h)).2.1 (outsAt0 m c n (Nat.lt_of_succ_lt h)).2.2) j).trans ?_
        refine (total_adv m c ⟨n + 1, h⟩ _ j).trans ?_
        rw [ih.1, accTotal_succ m c n h]
      · refine (congrFun (Pieces.count_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _
          (blkA m c ⟨n + 1, h⟩) (blkP m c ⟨n + 1, h⟩) (blkN m c ⟨n + 1, h⟩) (blkB m c ⟨n + 1, h⟩) (outsAt0 m c n (Nat.lt_of_succ_lt h)).2.1 (outsAt0 m c n (Nat.lt_of_succ_lt h)).2.2) j).trans ?_
        refine (count_adv m c ⟨n + 1, h⟩ _ j).trans ?_
        rw [ih.2, accCount_succ m c n h]
    · rw [outsAt0_B m c ⟨n + 1, h⟩ h0 h1]
      dsimp only
      constructor
      · refine (congrFun (Pieces.total_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _
          (blkA m c ⟨n + 1, h⟩) (blkP m c ⟨n + 1, h⟩) (blkN m c ⟨n + 1, h⟩) (blkB m c ⟨n + 1, h⟩) (outsAt0 m c n (Nat.lt_of_succ_lt h)).2.1 (outsAt0 m c n (Nat.lt_of_succ_lt h)).2.2) j).trans ?_
        refine (total_adv m c ⟨n + 1, h⟩ _ j).trans ?_
        rw [ih.1, accTotal_succ m c n h]
      · refine (congrFun (Pieces.count_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _
          (blkA m c ⟨n + 1, h⟩) (blkP m c ⟨n + 1, h⟩) (blkN m c ⟨n + 1, h⟩) (blkB m c ⟨n + 1, h⟩) (outsAt0 m c n (Nat.lt_of_succ_lt h)).2.1 (outsAt0 m c n (Nat.lt_of_succ_lt h)).2.2) j).trans ?_
        refine (count_adv m c ⟨n + 1, h⟩ _ j).trans ?_
        rw [ih.2, accCount_succ m c n h]

/-- The partial sums at a point after the first, from the point before. -/
theorem accTotal_step (c : Dev nD) (t : Fin cfg0.N) (ht : 0 < t.val) : accTotal m c t.val = accTotal m c (t.val - 1) + partTotal m c t := by
  obtain ⟨n, h⟩ := t
  cases n with
  | zero => exact absurd ht (Nat.lt_irrefl 0)
  | succ n => exact accTotal_succ m c n h
theorem accCount_step (c : Dev nD) (t : Fin cfg0.N) (ht : 0 < t.val) : accCount m c t.val = accCount m c (t.val - 1) + partCount m c t := by
  obtain ⟨n, h⟩ := t
  cases n with
  | zero => exact absurd ht (Nat.lt_irrefl 0)
  | succ n => exact accCount_succ m c n h

/-- The entry the last point stores: the final quotient of the two full sums. -/
theorem out_last (c : Dev nD) (t : Fin cfg0.N) (h1 : t.val % 64 = 63) (j : S1x1.Idx) :
    (outsAt0 m c t.val t.isLt).1 j = finish (accTotal m c t.val) (accCount m c t.val) := by
  have hN : cfg0.N = 64 := N_0
  have hlt := t.isLt
  have h0 : ¬t.val % 64 = 0 := by omega
  have hp : t.val - 1 < cfg0.N := by omega
  have ih := acc_eq m c (t.val - 1) hp j
  rw [outsAt0_C m c t h0 h1]
  dsimp only
  refine (congrFun (Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _
    (blkA m c t) (blkP m c t) (blkN m c t) (blkB m c t) (outsAt0 m c (t.val - 1) hp).2.1 (outsAt0 m c (t.val - 1) hp).2.2) j).trans ?_
  refine (Body.finish_apply _ _ j).trans ?_
  rw [total_adv m c t _ j, count_adv m c t _ j, ih.1, ih.2, ← accTotal_step m c t (by omega), ← accCount_step m c t (by omega)]

end Cert.KernelIdeal.Acc

end
-- ==== Proof.KernelValue.lean ====
/-
  The kernel program's result, on the extended reals.

  The region's output array has one entry, and only the last grid point writes it back: the final quotient of the full
  total and the full count. After the region the program reshapes that 1 × 1 array to the scalar result. So the result
  is `finish (Σ_t T t) (Σ_t C t)` over the 64 blocks' partial totals `T` and counts `C`, whatever the inputs.
-/
import proofs.«422218_j188978561412_2_alg».proof.Proof.KernelAcc
import Idealize.ShloMosaic.Lib.Pipeline.Value
import Idealize.ShloMosaic.Lib.StableHlo.Run

set_option maxRecDepth 16384

noncomputable section

namespace Cert.KernelIdeal.Value

open Idealize.ShloMosaic Idealize.ShloMosaic.TcCoe Idealize.ShloMosaic.ValueIdx Idealize.SL.Sem
open Idealize.ShloMosaic.Pipeline (Dat)
open Cert.KernelIdeal Cert.KernelIdeal.Gen Cert.TripletLoss Cert.KernelIdeal.Acc
open scoped BigOperators

variable (m : (ℓ : Loc nD τ sig) → Buf (Elt Ideal) ℓ) (ρ : Dev nD → PrngReg)

/-- The loss as the kernel accumulates it: the final quotient of the 64 blocks' totals and counts. -/
def kloss (c : Dev nD) : EReal := finish (accTotal m c 63) (accCount m c 63)

/-- The region's one-entry output array. -/
abbrev outArr (c : Dev nD) : Buf (Elt Ideal) ((c : Thread nD τ).loc main_v11) := fun _ => kloss m c

/-- What the last point leaves in the output's staging buffer is that array. -/
theorem out_eq (c : Dev nD) (t : Fin cfg0.N) (h1 : t.val % 64 = 63) :
    ((outsAt0 m c t.val t.isLt).1 : S1x1.Idx → EReal) = outArr m c := by
  funext j
  have hN : cfg0.N = 64 := N_0
  have hlt := t.isLt
  have h63 : t.val = 63 := by omega
  rw [out_last m c t h1 j, h63]
  rfl

/-- The one write-back writes it: the window's block is the whole 1 × 1 array. -/
theorem flushed_eq (c : Dev nD) (t : Fin cfg0.N) (hf : (cfg0.win 4).flush t = true) :
    (dats m 0 c).flushed 4 t = ((cfg0.win 4).blk t).view.read (Elt Ideal) (outArr m c) := by
  have h1 : t.val % 64 = 63 := (flush0_4 t).mp hf
  show (cfg0.win 4).cut (grid0.coords t) ((dats m 0 c).after 4 t) = _
  rw [after0_4, out_eq m c t h1]
  have hk : outArr m c = fun _ => kloss m c := rfl
  rw [hk]
  generalize kloss m c = k
  funext y
  rfl

/-- The host operation after the region reshapes the 1 × 1 array to the scalar result. -/
theorem tail_eq (c : Dev nD) (G : (dats m 0 c).arrAt 4 cfg0.N = outArr m c) :
    Pipeline.afterTail₀ cfgs (dats m) 0 (V0 m) [hostOps1] c main_v12 = fun _ => kloss m c := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.devRef .tc main_v11)
      = outArr m c := (Pipeline.withArrays_arr spec0 launch0.win.arr_inj c _ _ 4).trans G
  rw [e]
  funext i
  rfl

/-- The last grid point. -/
abbrev tLast : Fin cfg0.N := ⟨63, by rw [show cfg0.N = 64 from N_0]; decide⟩

/-- So the region's output array ends holding the final quotient: the last point's block covers it. -/
theorem final_out (c : Dev nD) : (dats m 0 c).arrAt 4 cfg0.N = outArr m c :=
  (dats m 0 c).arrAt_eq_of_cover 4 (outArr m c) (flushed_eq m c) fun i =>
    ⟨tLast, (flush0_4 tLast).mpr rfl, by
      show i ∈ ((View.whole main_v11).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat) ∧ (i 0 : Nat) < win0_4.index tLast 0 * win0_4.size 0 + win0_4.xsize (grid0.coords tLast) 0
        rw [show win0_4.index tLast 0 * win0_4.size 0 = 0 from by decide +kernel, show win0_4.xsize (grid0.coords tLast) 0 = 1 from by decide +kernel]
        omega
      | ⟨1, _⟩ =>
        show win0_4.index tLast 1 * win0_4.size 1 ≤ (i 1 : Nat) ∧ (i 1 : Nat) < win0_4.index tLast 1 * win0_4.size 1 + win0_4.xsize (grid0.coords tLast) 1
        rw [show win0_4.index tLast 1 * win0_4.size 1 = 0 from by decide +kernel, show win0_4.xsize (grid0.coords tLast) 1 = 1 from by decide +kernel]
        omega⟩

/-- The run, read: the scalar result at the accumulated loss, the arguments unchanged. -/
theorem run : θ_run defs (onTc (τ := τ) (main (F := Ideal))) ⟨m, fun _ => 0, ρ⟩ fun r => ∀ c : Dev nD,
      r.2.mem ((c.tc : Thread nD τ).loc main_v12) = (fun _ => kloss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v12 (Pipeline.mem_restRefs_of main_v12 (by decide) (by decide))).trans (tail_eq m c (final_out m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Value

end
-- ==== Proof.Bridge.lean ====
/-
  The kernel's accumulated loss is the loss of the four arrays its region is launched on.

  Window `w`'s block at grid point `t` is rows `1024·t … 1024·t + 1023` of its array (for the offsets: entries
  `1024·t …`). So block `t`'s partial total is the sum of `rowLoss` over those rows, the 64 partial totals add up to
  the sum over all 65536 rows (`sum_blocks`), and likewise the counts.
-/
import proofs.«422218_j188978561412_2_alg».proof.Proof.KernelValue

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen Cert.TripletLoss Cert.KernelIdeal.Acc Cert.KernelIdeal.Value
open scoped BigOperators

variable (m : (ℓ : Loc nD τ sig) → Buf (Elt Ideal) ℓ)

/-- The four arrays the region is launched on. -/
abbrev arrA (c : Dev nD) : S65536x512.Idx → EReal := V m c main_v6
abbrev arrP (c : Dev nD) : S65536x512.Idx → EReal := V m c main_v7
abbrev arrN (c : Dev nD) : S65536x512.Idx → EReal := V m c main_v8
abbrev arrB (c : Dev nD) : S65536.Idx → EReal := V m c main_v10

/-- Row `r` of block `t`, as a row of the array. -/
def rowOf (t : Fin cfg0.N) (r : Fin 1024) : Fin 65536 :=
  ⟨1024 * t.val + r.val, by
    have h : t.val < 64 := lt_of_lt_of_eq t.isLt (show cfg0.N = 64 from N_0)
    have := r.isLt; omega⟩

/-- The index maps: block `t` of a row window starts at row block `t`, lane block 0; of the offsets, at block `t`. -/
theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2 : ∀ t : Fin grid0.N, win0_2.index t (0 : Fin 2) = t.val ∧ win0_2.index t (1 : Fin 2) = 0 := by decide +kernel
theorem idx3 : ∀ t : Fin grid0.N, win0_3.index t (0 : Fin 1) = t.val := by decide +kernel

/-- The anchor block's entry (r, l) is the array's entry (1024·t + r, l). -/
theorem blkA_apply (c : Dev nD) (t : Fin cfg0.N) (r : Fin 1024) (l : Fin 512) :
    blkA m c t (ix2 r l) = arrA m c (ix2 (rowOf t r) l) := by
  show ((cfg0.win 0).blk t).view.read (Elt Ideal) (V m c (Pipeline.arrRef spec0 0)) (ix2 r l) = _
  rw [View.read_apply]
  show V m c main_v6 (((cfg0.win 0).blk t).view.emb (ix2 r l)) = V m c main_v6 (ix2 (rowOf t r) l)
  refine congrArg (V m c main_v6) (funext fun a => Fin.ext ?_)
  match a with
  | ⟨0, _⟩ => show win0_0.index t 0 * 1024 + 1 * r.val = 1024 * t.val + r.val; rw [(idx0 t).1]; omega
  | ⟨1, _⟩ => show win0_0.index t 1 * 512 + 1 * l.val = l.val; rw [(idx0 t).2]; omega

/-- The positive block's entry (r, l) is the array's entry (1024·t + r, l). -/
theorem blkP_apply (c : Dev nD) (t : Fin cfg0.N) (r : Fin 1024) (l : Fin 512) :
    blkP m c t (ix2 r l) = arrP m c (ix2 (rowOf t r) l) := by
  show ((cfg0.win 1).blk t).view.read (Elt Ideal) (V m c (Pipeline.arrRef spec0 1)) (ix2 r l) = _
  rw [View.read_apply]
  show V m c main_v7 (((cfg0.win 1).blk t).view.emb (ix2 r l)) = V m c main_v7 (ix2 (rowOf t r) l)
  refine congrArg (V m c main_v7) (funext fun a => Fin.ext ?_)
  match a with
  | ⟨0, _⟩ => show win0_1.index t 0 * 1024 + 1 * r.val = 1024 * t.val + r.val; rw [(idx1 t).1]; omega
  | ⟨1, _⟩ => show win0_1.index t 1 * 512 + 1 * l.val = l.val; rw [(idx1 t).2]; omega

/-- The negative block's entry (r, l) is the array's entry (1024·t + r, l). -/
theorem blkN_apply (c : Dev nD) (t : Fin cfg0.N) (r : Fin 1024) (l : Fin 512) :
    blkN m c t (ix2 r l) = arrN m c (ix2 (rowOf t r) l) := by
  show ((cfg0.win 2).blk t).view.read (Elt Ideal) (V m c (Pipeline.arrRef spec0 2)) (ix2 r l) = _
  rw [View.read_apply]
  show V m c main_v8 (((cfg0.win 2).blk t).view.emb (ix2 r l)) = V m c main_v8 (ix2 (rowOf t r) l)
  refine congrArg (V m c main_v8) (funext fun a => Fin.ext ?_)
  match a with
  | ⟨0, _⟩ => show win0_2.index t 0 * 1024 + 1 * r.val = 1024 * t.val + r.val; rw [(idx2 t).1]; omega
  | ⟨1, _⟩ => show win0_2.index t 1 * 512 + 1 * l.val = l.val; rw [(idx2 t).2]; omega

/-- The offsets block's entry r is the vector's entry 1024·t + r. -/
theorem blkB_apply (c : Dev nD) (t : Fin cfg0.N) (r : Fin 1024) :
    blkB m c t (ix1 r) = arrB m c (ix1 (rowOf t r)) := by
  show ((cfg0.win 3).blk t).view.read (Elt Ideal) (V m c (Pipeline.arrRef spec0 3)) (ix1 r) = _
  rw [View.read_apply]
  show V m c main_v10 (((cfg0.win 3).blk t).view.emb (ix1 r)) = V m c main_v10 (ix1 (rowOf t r))
  refine congrArg (V m c main_v10) (funext fun a => Fin.ext ?_)
  match a with
  | ⟨0, _⟩ => show win0_3.index t 0 * 1024 + 1 * r.val = 1024 * t.val + r.val; rw [idx3 t]; omega

/-- A block's row is the array's row. -/
theorem browA (c : Dev nD) (t : Fin cfg0.N) (r : Fin 1024) : Body.brow (blkA m c t) r = rows (arrA m c) (rowOf t r) :=
  funext fun l => blkA_apply m c t r l
theorem browP (c : Dev nD) (t : Fin cfg0.N) (r : Fin 1024) : Body.brow (blkP m c t) r = rows (arrP m c) (rowOf t r) :=
  funext fun l => blkP_apply m c t r l
theorem browN (c : Dev nD) (t : Fin cfg0.N) (r : Fin 1024) : Body.brow (blkN m c t) r = rows (arrN m c) (rowOf t r) :=
  funext fun l => blkN_apply m c t r l

/-- The two hinge columns of block `t` at row `r` are the two hinges of triplet `1024·t + r`. -/
theorem posCol_apply (c : Dev nD) (t : Fin cfg0.N) (r : Fin 1024) :
    posCol m c t (ix2 r (0 : Fin 1))
      = posTerm (rows (arrA m c) (rowOf t r)) (rows (arrP m c) (rowOf t r)) (vals (arrB m c) (rowOf t r)) := by
  refine (Body.pos_apply (blkA m c t) (blkP m c t) (blkB m c t) r).trans ?_
  rw [browA, browP, blkB_apply]
  rfl
theorem negCol_apply (c : Dev nD) (t : Fin cfg0.N) (r : Fin 1024) :
    negCol m c t (ix2 r (0 : Fin 1))
      = negTerm (rows (arrA m c) (rowOf t r)) (rows (arrN m c) (rowOf t r)) (vals (arrB m c) (rowOf t r)) := by
  refine (Body.neg_apply (blkA m c t) (blkN m c t) (blkB m c t) r).trans ?_
  rw [browA, browN, blkB_apply]
  rfl

/-- Block `t`'s partial total and count are the sums over its rows of the specification's row terms. -/
theorem partTotal_eq (c : Dev nD) (t : Fin cfg0.N) :
    partTotal m c t = ∑ r : Fin 1024, rowLoss (rows (arrA m c)) (rows (arrP m c)) (rows (arrN m c)) (vals (arrB m c)) (rowOf t r) := by
  unfold partTotal
  refine Finset.sum_congr rfl fun r _ => ?_
  rw [posCol_apply, negCol_apply]
  rfl
theorem partCount_eq (c : Dev nD) (t : Fin cfg0.N) :
    partCount m c t = ∑ r : Fin 1024, rowActive (rows (arrA m c)) (rows (arrP m c)) (rows (arrN m c)) (vals (arrB m c)) (rowOf t r) := by
  unfold partCount
  refine Finset.sum_congr rfl fun r _ => ?_
  rw [posCol_apply, negCol_apply]
  rfl

/-- Block `t` as a point of the grid. -/
def pt (t : Fin 64) : Fin cfg0.N := ⟨t.val, lt_of_lt_of_eq t.isLt (show cfg0.N = 64 from N_0).symm⟩

theorem rowOf_pt (t : Fin 64) (r : Fin 1024) : rowOf (pt t) r = blockRow t r := rfl

/-- The full sums of the partial totals and counts are the specification's total and count. -/
theorem accTotal_eq (c : Dev nD) :
    accTotal m c 63 = total (rows (arrA m c)) (rows (arrP m c)) (rows (arrN m c)) (vals (arrB m c)) := by
  unfold accTotal total
  rw [sum_blocks, ← Fin.sum_univ_eq_sum_range (fun k => if h : k < cfg0.N then partTotal m c ⟨k, h⟩ else 0) 64]
  refine Finset.sum_congr rfl fun t _ => ?_
  rw [dif_pos (show t.val < cfg0.N from (pt t).isLt)]
  exact partTotal_eq m c (pt t)
theorem accCount_eq (c : Dev nD) :
    accCount m c 63 = Cert.TripletLoss.count (rows (arrA m c)) (rows (arrP m c)) (rows (arrN m c)) (vals (arrB m c)) := by
  unfold accCount Cert.TripletLoss.count
  rw [sum_blocks, ← Fin.sum_univ_eq_sum_range (fun k => if h : k < cfg0.N then partCount m c ⟨k, h⟩ else 0) 64]
  refine Finset.sum_congr rfl fun t _ => ?_
  rw [dif_pos (show t.val < cfg0.N from (pt t).isLt)]
  exact partCount_eq m c (pt t)

/-- The kernel's accumulated loss is the loss of the four arrays. -/
theorem kloss_eq (c : Dev nD) :
    kloss m c = loss (rows (arrA m c)) (rows (arrP m c)) (rows (arrN m c)) (vals (arrB m c)) := by
  unfold kloss loss
  rw [accTotal_eq, accCount_eq]

end Cert.KernelIdeal.Bridge

end
-- ==== Proof.KernelHost.lean ====
/-
  The four arrays the kernel region is launched on, under the index-range precondition.

  Before the region the program takes rows of `batch` at the three index columns of `triplets`, and entries of
  `beta` at the labels of the anchors. Each take wraps a negative index once (adds the table's length), marks the
  positions whose wrapped index lies inside the table, gathers (the gather clamps), and keeps the gathered value
  where marked, a fill value elsewhere. When every index lies in `[-len, len)` the wrapped index lies in
  `[0, len)`, every position is marked, and the take IS the gather at the wrapped index: the same array the
  reference program gathers.
-/
import proofs.«422218_j188978561412_2_alg».proof.Defs
import proofs.«422218_j188978561412_2_alg».proof.Proof.Gen.KernelIdeal.Frame
import proofs.«422218_j188978561412_2_alg».proof.Proof.Gen.Pre_finite_inputs
import proofs.«422218_j188978561412_2_alg».proof.Proof.RefRead
import Idealize.ShloMosaic.Lib.StableHlo.Run
import Idealize.ShloMosaic.Lib.StableHlo.Predicate
import Idealize.ShloMosaic.Lib.ReduceAll

noncomputable section

namespace Cert.KernelIdeal.HostValue

open Idealize.ShloMosaic Idealize.ShloMosaic.TcCoe Idealize.SL.Sem Cert.KernelIdeal Cert.KernelIdeal.Gen

/-! ## Words: an index in `[-n, n)`, wrapped once, lies in `[0, n)` -/

/-- The wrapped index: `t + n` when `t` is negative, else `t`. For `-n ≤ t < n` it lies in `[0, n)`:
    a negative `t` is at least `-n`, so `t + n` is in `[0, n)` and the 32-bit sum does not wrap. -/
theorem wrap_range (t : BitVec 32) (n : Nat) (hn : n ≤ 2 ^ 30) (h : -(n : Int) ≤ t.toInt ∧ t.toInt < n) :
    0 ≤ (Scalar.select (IntOp.cmpi .slt t 0#32) (IntOp.addi t (BitVec.ofNat 32 n)) t).toInt
      ∧ (Scalar.select (IntOp.cmpi .slt t 0#32) (IntOp.addi t (BitVec.ofNat 32 n)) t).toInt < n := by
  have h0 : (0#32 : BitVec 32).toInt = 0 := by decide
  by_cases hneg : t.toInt < 0
  · have hc : IntOp.cmpi .slt t 0#32 = 1#1 := IntOp.cmpi_slt.2 (by rw [h0]; exact hneg)
    rw [hc]
    show 0 ≤ (t + BitVec.ofNat 32 n).toInt ∧ (t + BitVec.ofNat 32 n).toInt < n
    rw [BitVec.toInt_add, BitVec.toInt_ofNat']
    have e1 : ((n : Int)).bmod (2 ^ 32) = n := Int.bmod_eq_of_le_mul_two (by omega) (by omega)
    rw [e1]
    have e2 : (t.toInt + (n : Int)).bmod (2 ^ 32) = t.toInt + n := Int.bmod_eq_of_le_mul_two (by omega) (by omega)
    rw [e2]
    omega
  · have hc : ¬ IntOp.cmpi .slt t 0#32 = 1#1 := fun e => hneg (by have := IntOp.cmpi_slt.1 e; rw [h0] at this; exact this)
    have : Scalar.select (IntOp.cmpi .slt t 0#32) (IntOp.addi t (BitVec.ofNat 32 n)) t = t := if_neg hc
    rw [this]
    omega

/-! ## A reduction by `and` of ones, from one, is one -/

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- The converse of `Host.reduce_andi_eq_one`: all ones reduce to one. -/
theorem reduce_andi_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_one x _ fun n _ => hx n

variable (m : (ℓ : Loc nD τ sig) → Buf (Elt Ideal) ℓ)

/-! ## The precondition, decoded: every triplet entry in `[-4096, 4096)`, every label in `[-100, 100)` -/

/-- A rank-0 array has one index. -/
theorem S_idx_subsingleton : Subsingleton Cert.Pre_finite_inputs.S_.Idx := ⟨fun a b => funext fun d => d.elim0⟩

/-- The precondition is a conjunction of four `all`s; the last two compare every entry of `triplets` with
    `-4096` and `4096`, and every entry of `labels` with `-100` and `100`, signed. -/
theorem pre_ranges (hpre : Cert.Pre_KernelIdeal m) (c : Dev nD) :
    (∀ i : S65536x3.Idx, -4096 ≤ (m ((c.tc : Thread nD τ).loc main_arg3) i).toInt
        ∧ (m ((c.tc : Thread nD τ).loc main_arg3) i).toInt < 4096)
      ∧ (∀ i : S4096.Idx, -100 ≤ (m ((c.tc : Thread nD τ).loc main_arg2) i).toInt
        ∧ (m ((c.tc : Thread nD τ).loc main_arg2) i).toInt < 100) := by
  haveI := S_idx_subsingleton
  have e := congrFun (hpre c) (fun a => a.elim0)
  dsimp only [Cert.Pre_finite_inputs.fn, Cert.Pre_finite_inputs.fn_part1] at e
  obtain ⟨h123, hL⟩ := IntOp.andi_eq_one.1 e
  obtain ⟨-, hT⟩ := IntOp.andi_eq_one.1 h123
  have c1 : (4294963200#32 : BitVec 32).toInt = -4096 := by decide
  have c2 : (4096#32 : BitVec 32).toInt = 4096 := by decide
  have c3 : (4294967196#32 : BitVec 32).toInt = -100 := by decide
  have c4 : (100#32 : BitVec 32).toInt = 100 := by decide
  constructor
  · intro i
    obtain ⟨hge, hlt⟩ := IntOp.andi_eq_one.1 (Host.reduce_andi_all _ _ _ _ _ hT i)
    have h1 : (4294963200#32 : BitVec 32).toInt ≤ (m ((c.tc : Thread nD τ).loc main_arg3) i).toInt := IntOp.cmpi_sge.1 hge
    have h2 : (m ((c.tc : Thread nD τ).loc main_arg3) i).toInt < (4096#32 : BitVec 32).toInt := IntOp.cmpi_slt.1 hlt
    rw [c1] at h1; rw [c2] at h2
    exact ⟨h1, h2⟩
  · intro i
    obtain ⟨hge, hlt⟩ := IntOp.andi_eq_one.1 (Host.reduce_andi_all _ _ _ _ _ hL i)
    have h1 : (4294967196#32 : BitVec 32).toInt ≤ (m ((c.tc : Thread nD τ).loc main_arg2) i).toInt := IntOp.cmpi_sge.1 hge
    have h2 : (m ((c.tc : Thread nD τ).loc main_arg2) i).toInt < (100#32 : BitVec 32).toInt := IntOp.cmpi_slt.1 hlt
    rw [c3] at h1; rw [c4] at h2
    exact ⟨h1, h2⟩

/-! ## A take: the wrapped index column, its marks, and the marks under the range hypothesis -/

/-- The wrapped index column of a take from a table of `n` entries: `n` added to the negative indices, as a
    column (the array of start indices the gather reads). -/
def wrapCol (n : BitVec 32) (col : IVec S65536 32) : IVec S65536x1 32 :=
  broadcastInDim S65536x1 ![0] bcast_S65536_S65536x1_0
    (select (cmpi .slt col (broadcastInDim S65536 ![] bcast_S_S65536 (constantI S_ 32 0#32)))
      (addi col (broadcastInDim S65536 ![] bcast_S_S65536 (constantI S_ 32 n))) col)

/-- The marks of a take: position `j` is marked when its wrapped index lies in `[0, hi]` (the `and` of the two
    comparisons, reduced over the column's one entry per position). -/
def marks (hi : BitVec 32) (W : IVec S65536x1 32) : IVec S65536 1 :=
  Host.reduce IntOp.andi
    (andi (cmpi .sge W (broadcastInDim S65536x1 ![] bcast_S_S65536x1 (constantI S_ 32 0#32)))
      (cmpi .sle W (broadcastInDim S65536x1 ![0, 1] bcast_S1x1_S65536x1_0_1
        (broadcastInDim S1x1 ![1] bcast_S1_S1x1_1 (constantI S1 32 hi)))))
    (constantI S_ 1 1#1) reducesTo_S65536x1_S65536_d1 h_S_

/-- Every entry of the wrapped column lies in `[0, n)` when every index lies in `[-n, n)`. -/
theorem wrapCol_range (n : Nat) (hn : n ≤ 2 ^ 30) (col : IVec S65536 32)
    (hcol : ∀ k, -(n : Int) ≤ (col k).toInt ∧ (col k).toInt < n) (i : S65536x1.Idx) :
    0 ≤ (wrapCol (BitVec.ofNat 32 n) col i).toInt ∧ (wrapCol (BitVec.ofNat 32 n) col i).toInt < n :=
  wrap_range (col _) n hn (hcol _)

/-- Every position is marked when every wrapped index lies in `[0, hi]`. -/
theorem marks_one (hi : BitVec 32) (W : IVec S65536x1 32) (hW : ∀ i, 0 ≤ (W i).toInt ∧ (W i).toInt ≤ hi.toInt) :
    marks hi W = fun _ => 1#1 := by
  funext j
  have h0 : (0#32 : BitVec 32).toInt = 0 := by decide
  refine reduce_andi_one _ _ _ _ (fun i => ?_) (fun _ => rfl) j
  exact IntOp.andi_eq_one.2
    ⟨(IntOp.cmpi_sge (x := W i) (y := 0#32)).2 (by rw [h0]; exact (hW i).1),
     (IntOp.cmpi_sle (x := W i) (y := hi)).2 (hW i).2⟩

/-- A select on marks that are all ones keeps its first operand. -/
theorem select_marks {α : Type} (hi : BitVec 32) (W : IVec S65536x1 32)
    (hW : ∀ i, 0 ≤ (W i).toInt ∧ (W i).toInt ≤ hi.toInt) (a b : S65536.Idx → α) :
    select (marks hi W) a b = a := by
  rw [marks_one hi W hW]
  funext j
  exact (if_pos rfl : Scalar.select 1#1 (a j) (b j) = a j)

/-- The same with the marks broadcast along the rows. -/
theorem select_marks_rows {α : Type} (hi : BitVec 32) (W : IVec S65536x1 32)
    (hW : ∀ i, 0 ≤ (W i).toInt ∧ (W i).toInt ≤ hi.toInt) (a b : S65536x512.Idx → α) :
    select (broadcastInDim S65536x512 ![0] bcast_S65536_S65536x512_0 (marks hi W)) a b = a := by
  rw [marks_one hi W hW]
  funext j
  exact (if_pos rfl : Scalar.select 1#1 (a j) (b j) = a j)

/-- Under the range hypothesis the wrapped column lies in `[0, hi]` for `hi = n - 1`, the bound the marks test. -/
theorem wrapCol_le (n : Nat) (hn : n ≤ 2 ^ 30) (hi : BitVec 32) (hhi : hi.toInt = (n : Int) - 1) (col : IVec S65536 32)
    (hcol : ∀ k, -(n : Int) ≤ (col k).toInt ∧ (col k).toInt < n) (i : S65536x1.Idx) :
    0 ≤ (wrapCol (BitVec.ofNat 32 n) col i).toInt ∧ (wrapCol (BitVec.ofNat 32 n) col i).toInt ≤ hi.toInt := by
  have h := wrapCol_range n hn col hcol i
  rw [hhi]
  omega

/-- The anchors' rows. -/
theorem V_anchor (hpre : Cert.Pre_KernelIdeal m) (c : Dev nD) :
    (V m c main_v6 : S65536x512.Idx → EReal)
      = Cert.ReferenceIdeal.Read.val_main_v8 (F := Ideal) (m ((c.tc : Thread nD τ).loc main_arg0)) (m ((c.tc : Thread nD τ).loc main_arg3)) := by
  obtain ⟨hT, -⟩ := pre_ranges m hpre c
  -- the array the host operations leave in the buffer: the take of `batch` at this column of `triplets`
  have e : (V m c main_v6 : S65536x512.Idx → EReal)
      = select (broadcastInDim S65536x512 ![0] bcast_S65536_S65536x512_0
            (marks 4095#32 (wrapCol 4096#32
              (Cert.ReferenceIdeal.Read.val_main_v1 (F := Ideal) (m ((c.tc : Thread nD τ).loc main_arg3))))))
          (Host.gather gather_S4096x512_S65536x1_S65536x512_1_0_n_n_0_1_1512 (m ((c.tc : Thread nD τ).loc main_arg0))
            (wrapCol 4096#32 (Cert.ReferenceIdeal.Read.val_main_v1 (F := Ideal) (m ((c.tc : Thread nD τ).loc main_arg3)))))
          (broadcastInDim S65536x512 ![] bcast_S_S65536x512 (constant (F := Ideal) S_ .f32 0x7FC00000#32)) := by
    dsimp only [Gen.V, Gen.V0]
    simp only [Gen.hostOps0, Gen.hostOps0_1, Gen.hostOps0_2, Gen.hostOps0_3, Gen.hostOps0_4, Gen.hostOps0_5, List.flatten_cons,
      List.flatten_nil, List.append_nil, List.cons_append, List.nil_append]
    open StableHlo in after_results_simp
    simp only [cast_cast, cast_eq]
    rfl
  -- the column's entries are entries of `triplets`
  have hcol : ∀ k, -((4096 : Nat) : Int) ≤ (Cert.ReferenceIdeal.Read.val_main_v1 (F := Ideal) (m ((c.tc : Thread nD τ).loc main_arg3)) k).toInt
      ∧ (Cert.ReferenceIdeal.Read.val_main_v1 (F := Ideal) (m ((c.tc : Thread nD τ).loc main_arg3)) k).toInt < (4096 : Nat) := fun k => by
    rw [Cert.ReferenceIdeal.Read.val_main_v1_apply, Cert.ReferenceIdeal.Read.val_main_v0_apply]
    exact hT _
  exact e.trans ((select_marks_rows 4095#32 _ (wrapCol_le 4096 (by decide) 4095#32 (by decide) _ hcol) _ _).trans rfl)

/-- The positives' rows. -/
theorem V_positive (hpre : Cert.Pre_KernelIdeal m) (c : Dev nD) :
    (V m c main_v7 : S65536x512.Idx → EReal)
      = Cert.ReferenceIdeal.Read.val_main_v17 (F := Ideal) (m ((c.tc : Thread nD τ).loc main_arg0)) (m ((c.tc : Thread nD τ).loc main_arg3)) := by
  obtain ⟨hT, -⟩ := pre_ranges m hpre c
  -- the array the host operations leave in the buffer: the take of `batch` at this column of `triplets`
  have e : (V m c main_v7 : S65536x512.Idx → EReal)
      = select (broadcastInDim S65536x512 ![0] bcast_S65536_S65536x512_0
            (marks 4095#32 (wrapCol 4096#32
              (Cert.ReferenceIdeal.Read.val_main_v10 (F := Ideal) (m ((c.tc : Thread nD τ).loc main_arg3))))))
          (Host.gather gather_S4096x512_S65536x1_S65536x512_1_0_n_n_0_1_1512 (m ((c.tc : Thread nD τ).loc main_arg0))
            (wrapCol 4096#32 (Cert.ReferenceIdeal.Read.val_main_v10 (F := Ideal) (m ((c.tc : Thread nD τ).loc main_arg3)))))
          (broadcastInDim S65536x512 ![] bcast_S_S65536x512 (constant (F := Ideal) S_ .f32 0x7FC00000#32)) := by
    dsimp only [Gen.V, Gen.V0]
    simp only [Gen.hostOps0, Gen.hostOps0_1, Gen.hostOps0_2, Gen.hostOps0_3, Gen.hostOps0_4, Gen.hostOps0_5, List.flatten_cons,
      List.flatten_nil, List.append_nil, List.cons_append, List.nil_append]
    open StableHlo in after_results_simp
    simp only [cast_cast, cast_eq]
    rfl
  -- the column's entries are entries of `triplets`
  have hcol : ∀ k, -((4096 : Nat) : Int) ≤ (Cert.ReferenceIdeal.Read.val_main_v10 (F := Ideal) (m ((c.tc : Thread nD τ).loc main_arg3)) k).toInt
      ∧ (Cert.ReferenceIdeal.Read.val_main_v10 (F := Ideal) (m ((c.tc : Thread nD τ).loc main_arg3)) k).toInt < (4096 : Nat) := fun k => by
    rw [Cert.ReferenceIdeal.Read.val_main_v10_apply, Cert.ReferenceIdeal.Read.val_main_v9_apply]
    exact hT _
  exact e.trans ((select_marks_rows 4095#32 _ (wrapCol_le 4096 (by decide) 4095#32 (by decide) _ hcol) _ _).trans rfl)

/-- The negatives' rows. -/
theorem V_negative (hpre : Cert.Pre_KernelIdeal m) (c : Dev nD) :
    (V m c main_v8 : S65536x512.Idx → EReal)
      = Cert.ReferenceIdeal.Read.val_main_v26 (F := Ideal) (m ((c.tc : Thread nD τ).loc main_arg0)) (m ((c.tc : Thread nD τ).loc main_arg3)) := by
  obtain ⟨hT, -⟩ := pre_ranges m hpre c
  -- the array the host operations leave in the buffer: the take of `batch` at this column of `triplets`
  have e : (V m c main_v8 : S65536x512.Idx → EReal)
      = select (broadcastInDim S65536x512 ![0] bcast_S65536_S65536x512_0
            (marks 4095#32 (wrapCol 4096#32
              (Cert.ReferenceIdeal.Read.val_main_v19 (F := Ideal) (m ((c.tc : Thread nD τ).loc main_arg3))))))
          (Host.gather gather_S4096x512_S65536x1_S65536x512_1_0_n_n_0_1_1512 (m ((c.tc : Thread nD τ).loc main_arg0))
            (wrapCol 4096#32 (Cert.ReferenceIdeal.Read.val_main_v19 (F := Ideal) (m ((c.tc : Thread nD τ).loc main_arg3)))))
          (broadcastInDim S65536x512 ![] bcast_S_S65536x512 (constant (F := Ideal) S_ .f32 0x7FC00000#32)) := by
    dsimp only [Gen.V, Gen.V0]
    simp only [Gen.hostOps0, Gen.hostOps0_1, Gen.hostOps0_2, Gen.hostOps0_3, Gen.hostOps0_4, Gen.hostOps0_5, List.flatten_cons,
      List.flatten_nil, List.append_nil, List.cons_append, List.nil_append]
    open StableHlo in after_results_simp
    simp only [cast_cast, cast_eq]
    rfl
  -- the column's entries are entries of `triplets`
  have hcol : ∀ k, -((4096 : Nat) : Int) ≤ (Cert.ReferenceIdeal.Read.val_main_v19 (F := Ideal) (m ((c.tc : Thread nD τ).loc main_arg3)) k).toInt
      ∧ (Cert.ReferenceIdeal.Read.val_main_v19 (F := Ideal) (m ((c.tc : Thread nD τ).loc main_arg3)) k).toInt < (4096 : Nat) := fun k => by
    rw [Cert.ReferenceIdeal.Read.val_main_v19_apply, Cert.ReferenceIdeal.Read.val_main_v18_apply]
    exact hT _
  exact e.trans ((select_marks_rows 4095#32 _ (wrapCol_le 4096 (by decide) 4095#32 (by decide) _ hcol) _ _).trans rfl)

/-- The anchors' margin offsets. -/
theorem V_offset (hpre : Cert.Pre_KernelIdeal m) (c : Dev nD) :
    (V m c main_v10 : S65536.Idx → EReal)
      = Cert.ReferenceIdeal.Read.val_main_v54 (F := Ideal) (m ((c.tc : Thread nD τ).loc main_arg1)) (m ((c.tc : Thread nD τ).loc main_arg2)) (m ((c.tc : Thread nD τ).loc main_arg3)) := by
  obtain ⟨hT, hL⟩ := pre_ranges m hpre c
  -- the array the host operations leave in the buffer: the take of `beta` at the take of `labels` at column 0
  have e : (V m c main_v10 : S65536.Idx → EReal)
      = select (marks 99#32 (wrapCol 100#32 (select (marks 4095#32 (wrapCol 4096#32 (Cert.ReferenceIdeal.Read.val_main_v40 (F := Ideal) (m ((c.tc : Thread nD τ).loc main_arg3)))))
              (Host.gather gather_S4096_S65536x1_S65536_n_0_n_n_0_1_1 (m ((c.tc : Thread nD τ).loc main_arg2)) (wrapCol 4096#32 (Cert.ReferenceIdeal.Read.val_main_v40 (F := Ideal) (m ((c.tc : Thread nD τ).loc main_arg3)))))
              (broadcastInDim S65536 ![] bcast_S_S65536 (constantI S_ 32 2147483648#32)))))
          (Host.gather gather_S100_S65536x1_S65536_n_0_n_n_0_1_1 (m ((c.tc : Thread nD τ).loc main_arg1))
            (wrapCol 100#32 (select (marks 4095#32 (wrapCol 4096#32 (Cert.ReferenceIdeal.Read.val_main_v40 (F := Ideal) (m ((c.tc : Thread nD τ).loc main_arg3)))))
              (Host.gather gather_S4096_S65536x1_S65536_n_0_n_n_0_1_1 (m ((c.tc : Thread nD τ).loc main_arg2)) (wrapCol 4096#32 (Cert.ReferenceIdeal.Read.val_main_v40 (F := Ideal) (m ((c.tc : Thread nD τ).loc main_arg3)))))
              (broadcastInDim S65536 ![] bcast_S_S65536 (constantI S_ 32 2147483648#32)))))
          (broadcastInDim S65536 ![] bcast_S_S65536 (constant (F := Ideal) S_ .f32 0x7FC00000#32)) := by
    dsimp only [Gen.V, Gen.V0]
    simp only [Gen.hostOps0, Gen.hostOps0_1, Gen.hostOps0_2, Gen.hostOps0_3, Gen.hostOps0_4, Gen.hostOps0_5, List.flatten_cons,
      List.flatten_nil, List.append_nil, List.cons_append, List.nil_append]
    open StableHlo in after_results_simp
    simp only [cast_cast, cast_eq]
    rfl
  -- the first take: the column's entries are entries of `triplets`, so the take of `labels` is the gather
  have hcol0 : ∀ k, -((4096 : Nat) : Int) ≤ (Cert.ReferenceIdeal.Read.val_main_v40 (F := Ideal) (m ((c.tc : Thread nD τ).loc main_arg3)) k).toInt
      ∧ (Cert.ReferenceIdeal.Read.val_main_v40 (F := Ideal) (m ((c.tc : Thread nD τ).loc main_arg3)) k).toInt < (4096 : Nat) := fun k => by
    rw [Cert.ReferenceIdeal.Read.val_main_v40_apply, Cert.ReferenceIdeal.Read.val_main_v39_apply]
    exact hT _
  have eL : (select (marks 4095#32 (wrapCol 4096#32 (Cert.ReferenceIdeal.Read.val_main_v40 (F := Ideal) (m ((c.tc : Thread nD τ).loc main_arg3)))))
              (Host.gather gather_S4096_S65536x1_S65536_n_0_n_n_0_1_1 (m ((c.tc : Thread nD τ).loc main_arg2)) (wrapCol 4096#32 (Cert.ReferenceIdeal.Read.val_main_v40 (F := Ideal) (m ((c.tc : Thread nD τ).loc main_arg3)))))
              (broadcastInDim S65536 ![] bcast_S_S65536 (constantI S_ 32 2147483648#32)))
      = (Host.gather gather_S4096_S65536x1_S65536_n_0_n_n_0_1_1 (m ((c.tc : Thread nD τ).loc main_arg2)) (wrapCol 4096#32 (Cert.ReferenceIdeal.Read.val_main_v40 (F := Ideal) (m ((c.tc : Thread nD τ).loc main_arg3))))) :=
    select_marks 4095#32 _ (wrapCol_le 4096 (by decide) 4095#32 (by decide) _ hcol0) _ _
  rw [eL] at e
  -- the second take: a gathered label is an entry of `labels`
  have hcol1 : ∀ k, -((100 : Nat) : Int) ≤ ((Host.gather gather_S4096_S65536x1_S65536_n_0_n_n_0_1_1 (m ((c.tc : Thread nD τ).loc main_arg2)) (wrapCol 4096#32 (Cert.ReferenceIdeal.Read.val_main_v40 (F := Ideal) (m ((c.tc : Thread nD τ).loc main_arg3))))) k).toInt
      ∧ ((Host.gather gather_S4096_S65536x1_S65536_n_0_n_n_0_1_1 (m ((c.tc : Thread nD τ).loc main_arg2)) (wrapCol 4096#32 (Cert.ReferenceIdeal.Read.val_main_v40 (F := Ideal) (m ((c.tc : Thread nD τ).loc main_arg3))))) k).toInt < (100 : Nat) := fun k => hL _
  exact e.trans ((select_marks 99#32 _ (wrapCol_le 100 (by decide) 99#32 (by decide) _ hcol1) _ _).trans rfl)

end Cert.KernelIdeal.HostValue

end
-- ==== Proof.RefValue.lean ====
/-
  The reference program's result is the loss of its four gathered arrays.

  After its gathers the reference computes, over whole arrays, the two hinges of every triplet, their sum and the
  count of active triplets as host reductions from zero, and the final quotient. Read entry by entry this is the
  loss function of the specification, applied to the gathered arrays.
-/
import proofs.«422218_j188978561412_2_alg».proof.Proof.RefRead
import proofs.«422218_j188978561412_2_alg».proof.Proof.Spec
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.Read Cert.TripletLoss
open scoped BigOperators

section stages

variable (x0 : (⟨S4096x512, .f32⟩ : BufTy).Contents (Elt Ideal)) (x1 : (⟨S100, .f32⟩ : BufTy).Contents (Elt Ideal))
  (x2 : (⟨S4096, .i32⟩ : BufTy).Contents (Elt Ideal)) (x3 : (⟨S65536x3, .i32⟩ : BufTy).Contents (Elt Ideal))

/-- The entry the first row sum reads for row `i` and lane `k` is entry `(i, k)`. -/
private theorem idx29 (i : Fin 65536) (k : Fin 512) : idx_main_v29 (ix1 i) k = ix2 i k := by
  funext a; match a with | ⟨0, _⟩ => rfl | ⟨1, _⟩ => rfl

/-- The same for the second row sum. -/
private theorem idx35 (i : Fin 65536) (k : Fin 512) : idx_main_v35 (ix1 i) k = ix2 i k := by
  funext a; match a with | ⟨0, _⟩ => rfl | ⟨1, _⟩ => rfl

/-- A sum over the positions of a length-65536 vector is the sum over the coordinate. -/
private theorem sum_idx1 {M : Type*} [AddCommMonoid M] (f : S65536.Idx → M) :
    ∑ j : S65536.Idx, f j = ∑ i : Fin 65536, f (ix1 i) :=
  (Fintype.sum_equiv (⟨fun i => ix1 i, fun j => j 0, fun _ => rfl, fun j => (eq_ix1 j).symm⟩ : Fin 65536 ≃ S65536.Idx)
    (fun i => f (ix1 i)) f (fun _ => rfl)).symm

/-- Row `i` of the anchor-to-positive distances: the row sum starts from zero, so it is the plain sum of the squared
    differences; then ε is added and the root taken. -/
private theorem dist_v32 (i : Fin 65536) :
    val_main_v32 (F := Ideal) x0 x3 (ix1 i)
      = TripletLoss.dist (rows (val_main_v8 (F := Ideal) x0 x3) i) (rows (val_main_v17 (F := Ideal) x0 x3) i) := by
  rw [val_main_v32_apply, val_main_v31_apply, val_main_v29_apply, val_main_v30_apply, val_main_cst_5_apply, val_main_cst_apply]
  simp only [Ideal.hostUnary_sqrt_def, Ideal.addf_def, Ideal.ofBits_def, Ideal.ofBits_zero_f32, zero_add]
  unfold TripletLoss.dist
  refine congrArg Ideal.sqrt (congrArg (· + epsV) (Finset.sum_congr rfl fun k _ => ?_))
  rw [idx29, val_main_v28_apply, val_main_v27_apply]
  rfl

/-- Row `i` of the anchor-to-negative distances. -/
private theorem dist_v38 (i : Fin 65536) :
    val_main_v38 (F := Ideal) x0 x3 (ix1 i)
      = TripletLoss.dist (rows (val_main_v8 (F := Ideal) x0 x3) i) (rows (val_main_v26 (F := Ideal) x0 x3) i) := by
  rw [val_main_v38_apply, val_main_v37_apply, val_main_v35_apply, val_main_v36_apply, val_main_cst_7_apply, val_main_cst_6_apply]
  simp only [Ideal.hostUnary_sqrt_def, Ideal.addf_def, Ideal.ofBits_def, Ideal.ofBits_zero_f32, zero_add]
  unfold TripletLoss.dist
  refine congrArg Ideal.sqrt (congrArg (· + epsV) (Finset.sum_congr rfl fun k _ => ?_))
  rw [idx35, val_main_v34_apply, val_main_v33_apply]
  rfl

/-- The positive hinge of triplet `i`: `max (d(a, p) − b + margin) 0`. -/
private theorem pos_row (i : Fin 65536) :
    val_main_v58 (F := Ideal) x0 x1 x2 x3 (ix1 i)
      = posTerm (rows (val_main_v8 (F := Ideal) x0 x3) i) (rows (val_main_v17 (F := Ideal) x0 x3) i)
          (vals (val_main_v54 (F := Ideal) x1 x2 x3) i) := by
  rw [val_main_v58_apply, val_main_v57_apply, val_main_v55_apply, val_main_v56_apply, val_main_cst_12_apply,
    val_main_call0_v0_apply, val_main_call0_cst_apply, dist_v32]
  rfl

/-- The negative hinge of triplet `i`: `max (b − d(a, n) + margin) 0`. -/
private theorem neg_row (i : Fin 65536) :
    val_main_v62 (F := Ideal) x0 x1 x2 x3 (ix1 i)
      = negTerm (rows (val_main_v8 (F := Ideal) x0 x3) i) (rows (val_main_v26 (F := Ideal) x0 x3) i)
          (vals (val_main_v54 (F := Ideal) x1 x2 x3) i) := by
  rw [val_main_v62_apply, val_main_v61_apply, val_main_v59_apply, val_main_v60_apply, val_main_cst_13_apply,
    val_main_call1_v0_apply, val_main_call1_cst_apply, dist_v38]
  rfl

/-- The number of active triplets: the sum from zero, over all positions, of the bit "either hinge is positive" read as
    0 or 1. -/
private theorem count_v69 (i : S_.Idx) :
    val_main_v69 (F := Ideal) x0 x1 x2 x3 i
      = TripletLoss.count (rows (val_main_v8 (F := Ideal) x0 x3)) (rows (val_main_v17 (F := Ideal) x0 x3)) (rows (val_main_v26 (F := Ideal) x0 x3))
          (vals (val_main_v54 (F := Ideal) x1 x2 x3)) := by
  rw [val_main_v69_apply, val_main_cst_16_apply]
  simp only [Ideal.ofBits_def, Ideal.ofBits_zero_f32, zero_add]
  rw [sum_idx1]
  unfold TripletLoss.count
  refine Finset.sum_congr rfl fun r _ => ?_
  rw [val_main_v68_apply, val_main_v67_apply, val_main_v64_apply, val_main_v66_apply, val_main_v63_apply, val_main_v65_apply,
    val_main_cst_14_apply, val_main_cst_15_apply, pos_row, neg_row]
  rfl

/-- The sum of all hinges: the sum from zero, over all positions, of the two hinges added. -/
private theorem total_v71 (i : S_.Idx) :
    val_main_v71 (F := Ideal) x0 x1 x2 x3 i
      = total (rows (val_main_v8 (F := Ideal) x0 x3)) (rows (val_main_v17 (F := Ideal) x0 x3)) (rows (val_main_v26 (F := Ideal) x0 x3))
          (vals (val_main_v54 (F := Ideal) x1 x2 x3)) := by
  rw [val_main_v71_apply, val_main_cst_17_apply]
  simp only [Ideal.ofBits_def, Ideal.ofBits_zero_f32, zero_add]
  rw [sum_idx1]
  unfold total
  refine Finset.sum_congr rfl fun r _ => ?_
  rw [val_main_v70_apply, pos_row, neg_row]
  rfl

end stages

/-- The reference's result, at its one (rank-0) index, is the loss of the gathered anchor, positive and negative
    rows and the gathered offsets. -/
theorem ref_loss (x0 : (⟨S4096x512, .f32⟩ : BufTy).Contents (Elt Ideal)) (x1 : (⟨S100, .f32⟩ : BufTy).Contents (Elt Ideal))
    (x2 : (⟨S4096, .i32⟩ : BufTy).Contents (Elt Ideal)) (x3 : (⟨S65536x3, .i32⟩ : BufTy).Contents (Elt Ideal)) (i : S_.Idx) :
    val_main_v75 (F := Ideal) x0 x1 x2 x3 i
      = loss (rows (val_main_v8 (F := Ideal) x0 x3)) (rows (val_main_v17 (F := Ideal) x0 x3)) (rows (val_main_v26 (F := Ideal) x0 x3))
          (vals (val_main_v54 (F := Ideal) x1 x2 x3)) := by
  rw [val_main_v75_apply, val_main_v72_apply, val_main_v74_apply, val_main_v73_apply, val_main_cst_18_apply,
    val_main_cst_19_apply, count_v69, total_v71]
  rfl

end Cert.ReferenceIdeal.RefValue

end
-- ==== Proof.lean ====
/-
  Triplet margin loss with per-class offsets: a kernel that accumulates the loss block by block against the whole-array
  computation, over the extended reals.

  For triplet `i` with rows `a, p, n` of `batch` (at the three index columns of `triplets`) and offset `b = beta[labels[a-index]]`:
    pos = max (√(‖a − p‖² + ε) − b + margin) 0,   neg = max (b − √(‖a − n‖² + ε) + margin) 0,
    loss = (Σ (pos + neg)) / max (#{pos > 0 or neg > 0}) 1   when that number is positive, else Σ (pos + neg).
  The reference gathers the rows and computes this over whole arrays. The kernel program takes the rows with a take that
  fills a row whose index is out of range; under the precondition every index (after wrapping a negative one once) is in
  range, so its four arrays are the reference's gathers (Proof/KernelHost.lean). Its region then walks 64 blocks of 1024
  triplets, adding each block's partial total and count to two carried accumulators, and stores the quotient at the last
  block (Proof/KernelPieces.lean, KernelAcc.lean, KernelValue.lean); the blocks' rows are the arrays' rows and a sum over
  65536 rows is the sum of the 64 block sums (Proof/Bridge.lean, Spec.lean). The reference's result read entry by entry
  is the same function of the same arrays (Proof/RefValue.lean). Only commutativity and associativity of + are used.
-/
import proofs.«422218_j188978561412_2_alg».proof.Defs
import proofs.«422218_j188978561412_2_alg».proof.Proof.Gen.Kernel
import proofs.«422218_j188978561412_2_alg».proof.Proof.Gen.Kernel.Frame
import proofs.«422218_j188978561412_2_alg».proof.Proof.Gen.KernelIdeal
import proofs.«422218_j188978561412_2_alg».proof.Proof.Gen.KernelIdeal.Frame
import proofs.«422218_j188978561412_2_alg».proof.Proof.Gen.ReferenceIdeal
import proofs.«422218_j188978561412_2_alg».proof.Proof.Gen.Pre_finite_inputs
import proofs.«422218_j188978561412_2_alg».proof.Proof.Bridge
import proofs.«422218_j188978561412_2_alg».proof.Proof.KernelHost
import proofs.«422218_j188978561412_2_alg».proof.Proof.RefValue
import Idealize.ShloMosaic.Adequacy
import Idealize.ShloMosaic.Init

noncomputable section

namespace Cert.Proof

open Idealize.ShloMosaic Idealize.SL.Sem Cert.TripletLoss

/-- The word-level kernel program runs and keeps its arguments. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel program and its reading on the extended reals. -/
theorem preserves : Cert.preserves_Kernel_KernelIdeal := trivial

/-- Both programs end with the loss of the same four gathered arrays. -/
theorem algebraic : Cert.algebraic_KernelIdeal_ReferenceIdeal := by
  intro m ρ m' ρ' hpre hagree
  refine ⟨fun c => fun _ => Cert.KernelIdeal.Value.kloss m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v75_eq]
  funext i
  rw [Cert.ReferenceIdeal.RefValue.ref_loss, (hagree c).1, (hagree c).2.1, (hagree c).2.2.1, (hagree c).2.2.2]
  show _ = Cert.KernelIdeal.Value.kloss m c
  rw [Cert.KernelIdeal.Bridge.kloss_eq m c]
  show _ = loss (rows (Cert.KernelIdeal.Gen.V m c Cert.KernelIdeal.main_v6)) (rows (Cert.KernelIdeal.Gen.V m c Cert.KernelIdeal.main_v7))
    (rows (Cert.KernelIdeal.Gen.V m c Cert.KernelIdeal.main_v8)) (vals (Cert.KernelIdeal.Gen.V m c Cert.KernelIdeal.main_v10))
  rw [Cert.KernelIdeal.HostValue.V_anchor m hpre c, Cert.KernelIdeal.HostValue.V_positive m hpre c,
    Cert.KernelIdeal.HostValue.V_negative m hpre c, Cert.KernelIdeal.HostValue.V_offset m hpre c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
